-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S1x256x1x1 : Shape := ⟨4, ![1, 256, 1, 1]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn {F : FTy → Type} [FloatOps F] (main_arg0 : FVec F S64x256x56x56 .f32) (main_arg1 : FVec F S1x256x1x1 .f32) (main_arg2 : FVec F S1x256x1x1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  main_v13
-- ==== Kernel.lean ====
abbrev S64x256x56x56 : Shape := ⟨4, ![64, 256, 56, 56]⟩
abbrev S1x256x1x1 : Shape := ⟨4, ![1, 256, 1, 1]⟩
abbrev S32x1 : Shape := ⟨2, ![32, 1]⟩
abbrev S32x32 : Shape := ⟨2, ![32, 32]⟩
abbrev S16x32x56x56 : Shape := ⟨4, ![16, 32, 56, 56]⟩
abbrev S32x16x56x56 : Shape := ⟨4, ![32, 16, 56, 56]⟩
abbrev S32x50176 : Shape := ⟨2, ![32, 50176]⟩
abbrev S32 : Shape := ⟨1, ![32]⟩
abbrev S50176x32 : Shape := ⟨2, ![50176, 32]⟩
abbrev S_ : Shape := ⟨0, ![]⟩
abbrev S1x32 : Shape := ⟨2, ![1, 32]⟩
abbrev S256 : Shape := ⟨1, ![256]⟩
abbrev S8x1x32 : Shape := ⟨3, ![8, 1, 32]⟩
abbrev S8x32x56x56 : Shape := ⟨4, ![8, 32, 56, 56]⟩
abbrev S1x1x32 : Shape := ⟨3, ![1, 1, 32]⟩
abbrev S32x8x56x56 : Shape := ⟨4, ![32, 8, 56, 56]⟩
abbrev S32x25088 : Shape := ⟨2, ![32, 25088]⟩
abbrev S1x32x1x1 : Shape := ⟨4, ![1, 32, 1, 1]⟩

abbrev nBuf : Space → Nat
  | .hbm => 105
  | .vmem => 14
  | .smem => 0
  | _ => 0

abbrev bufTy : (tb : Table) → Fin (tcTables nBuf tb) → BufTy
  | .hbm, ⟨0, _⟩ => ⟨S64x256x56x56, .f32⟩
  | .hbm, ⟨1, _⟩ => ⟨S1x256x1x1, .f32⟩
  | .hbm, ⟨2, _⟩ => ⟨S1x256x1x1, .f32⟩
  | .hbm, ⟨3, _⟩ => ⟨S32x1, .f32⟩
  | .hbm, ⟨4, _⟩ => ⟨S32x32, .f32⟩
  | .hbm, ⟨5, _⟩ => ⟨S_, .f32⟩
  | .hbm, ⟨6, _⟩ => ⟨S32x1, .f32⟩
  | .hbm, ⟨7, _⟩ => ⟨S32x1, .f32⟩
  | .hbm, ⟨8, _⟩ => ⟨S_, .f32⟩
  | .hbm, ⟨9, _⟩ => ⟨S32x32, .f32⟩
  | .hbm, ⟨10, _⟩ => ⟨S32x32, .f32⟩
  | .hbm, ⟨11, _⟩ => ⟨S1x32, .f32⟩
  | .hbm, ⟨12, _⟩ => ⟨S32x32, .f32⟩
  | .hbm, ⟨13, _⟩ => ⟨S32x32, .f32⟩
  | .hbm, ⟨14, _⟩ => ⟨S32x32, .i32⟩
  | .hbm, ⟨15, _⟩ => ⟨S32x32, .i32⟩
  | .hbm, ⟨16, _⟩ => ⟨S_, .i32⟩
  | .hbm, ⟨17, _⟩ => ⟨S32x32, .i32⟩
  | .hbm, ⟨18, _⟩ => ⟨S32x32, .i32⟩
  | .hbm, ⟨19, _⟩ => ⟨S32x32, .i1⟩
  | .hbm, ⟨20, _⟩ => ⟨S32x32, .f32⟩
  | .hbm, ⟨21, _⟩ => ⟨S_, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S32x32, .i32⟩
  | .hbm, ⟨26, _⟩ => ⟨S32x32, .i32⟩
  | .hbm, ⟨27, _⟩ => ⟨S_, .i32⟩
  | .hbm, ⟨28, _⟩ => ⟨S32x32, .i32⟩
  | .hbm, ⟨29, _⟩ => ⟨S32x32, .i32⟩
  | .hbm, ⟨30, _⟩ => ⟨S32x32, .i1⟩
  | .hbm, ⟨31, _⟩ => ⟨S_, .f32⟩
  | .hbm, ⟨32, _⟩ => ⟨S32x32, .f32⟩
  | .hbm, ⟨33, _⟩ => ⟨S32x32, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S32x32, .f32⟩
  | .hbm, ⟨39, _⟩ => ⟨S32x32, .f32⟩
  | .hbm, ⟨40, _⟩ => ⟨S32x32, .i32⟩
  | .hbm, ⟨41, _⟩ => ⟨S32x32, .i32⟩
  | .hbm, ⟨42, _⟩ => ⟨S_, .i32⟩
  | .hbm, ⟨43, _⟩ => ⟨S32x32, .i32⟩
  | .hbm, ⟨44, _⟩ => ⟨S32x32, .i32⟩
  | .hbm, ⟨45, _⟩ => ⟨S32x32, .i1⟩
  | .hbm, ⟨46, _⟩ => ⟨S32x32, .f32⟩
  | .hbm, ⟨47, _⟩ => ⟨S_, .f32⟩
  | .hbm, ⟨48, _⟩ => ⟨S32x32, .f32⟩
  | .hbm, ⟨49, _⟩ => ⟨S32x32, .f32⟩
  | .hbm, ⟨50, _⟩ => ⟨S32x32, .f32⟩
  | .hbm, ⟨51, _⟩ => ⟨S32x32, .f32⟩
  | .hbm, ⟨52, _⟩ => ⟨S_, .f32⟩
  | .hbm, ⟨53, _⟩ => ⟨S32x32, .f32⟩
  | .hbm, ⟨54, _⟩ => ⟨S32x32, .f32⟩
  | .hbm, ⟨55, _⟩ => ⟨S32x32, .f32⟩
  | .hbm, ⟨56, _⟩ => ⟨S32x32, .f32⟩
  | .hbm, ⟨57, _⟩ => ⟨S_, .f32⟩
  | .hbm, ⟨58, _⟩ => ⟨S32x32, .f32⟩
  | .hbm, ⟨59, _⟩ => ⟨S32x32, .f32⟩
  | .hbm, ⟨60, _⟩ => ⟨S32x32, .f32⟩
  | .hbm, ⟨61, _⟩ => ⟨S32x32, .f32⟩
  | .hbm, ⟨62, _⟩ => ⟨S_, .f32⟩
  | .hbm, ⟨63, _⟩ => ⟨S32x32, .f32⟩
  | .hbm, ⟨64, _⟩ => ⟨S32x32, .f32⟩
  | .hbm, ⟨65, _⟩ => ⟨S32x32, .f32⟩
  | .hbm, ⟨66, _⟩ => ⟨S32x32, .f32⟩
  | .hbm, ⟨67, _⟩ => ⟨S_, .f32⟩
  | .hbm, ⟨68, _⟩ => ⟨S32x32, .f32⟩
  | .hbm, ⟨69, _⟩ => ⟨S32x32, .f32⟩
  | .hbm, ⟨70, _⟩ => ⟨S32x32, .f32⟩
  | .hbm, ⟨71, _⟩ => ⟨S32x32, .f32⟩
  | .hbm, ⟨72, _⟩ => ⟨S_, .f32⟩
  | .hbm, ⟨73, _⟩ => ⟨S32x32, .f32⟩
  | .hbm, ⟨74, _⟩ => ⟨S32x32, .f32⟩
  | .hbm, ⟨75, _⟩ => ⟨S32x32, .f32⟩
  | .hbm, ⟨76, _⟩ => ⟨S32x32, .f32⟩
  | .hbm, ⟨77, _⟩ => ⟨S_, .f32⟩
  | .hbm, ⟨78, _⟩ => ⟨S32x32, .f32⟩
  | .hbm, ⟨79, _⟩ => ⟨S32x32, .f32⟩
  | .hbm, ⟨80, _⟩ => ⟨S32x32, .f32⟩
  | .hbm, ⟨81, _⟩ => ⟨S32x32, .f32⟩
  | .hbm, ⟨82, _⟩ => ⟨S_, .f32⟩
  | .hbm, ⟨83, _⟩ => ⟨S32x32, .f32⟩
  | .hbm, ⟨84, _⟩ => ⟨S32x32, .f32⟩
  | .hbm, ⟨85, _⟩ => ⟨S32x32, .f32⟩
  | .hbm, ⟨86, _⟩ => ⟨S32x32, .f32⟩
  | .hbm, ⟨87, _⟩ => ⟨S_, .f32⟩
  | .hbm, ⟨88, _⟩ => ⟨S32x32, .f32⟩
  | .hbm, ⟨89, _⟩ => ⟨S32x32, .f32⟩
  | .hbm, ⟨90, _⟩ => ⟨S32x32, .f32⟩
  | .hbm, ⟨91, _⟩ => ⟨S32x32, .f32⟩
  | .hbm, ⟨92, _⟩ => ⟨S_, .f32⟩
  | .hbm, ⟨93, _⟩ => ⟨S32x32, .f32⟩
  | .hbm, ⟨94, _⟩ => ⟨S32x32, .f32⟩
  | .hbm, ⟨95, _⟩ => ⟨S32x32, .f32⟩
  | .hbm, ⟨96, _⟩ => ⟨S32x32, .f32⟩
  | .hbm, ⟨97, _⟩ => ⟨S_, .f32⟩
  | .hbm, ⟨98, _⟩ => ⟨S32x32, .f32⟩
  | .hbm, ⟨99, _⟩ => ⟨S32x32, .f32⟩
  | .hbm, ⟨100, _⟩ => ⟨S256, .f32⟩
  | .hbm, ⟨101, _⟩ => ⟨S256, .f32⟩
  | .hbm, ⟨102, _⟩ => ⟨S8x1x32, .f32⟩
  | .hbm, ⟨103, _⟩ => ⟨S8x1x32, .f32⟩
  | .hbm, ⟨104, _⟩ => ⟨S64x256x56x56, .f32⟩
  | .local _ .vmem, ⟨0, _⟩ => ⟨S16x32x56x56, .f32⟩
  | .local _ .vmem, ⟨1, _⟩ => ⟨S16x32x56x56, .f32⟩
  | .local _ .vmem, ⟨2, _⟩ => ⟨S32x1, .f32⟩
  | .local _ .vmem, ⟨3, _⟩ => ⟨S32x32, .f32⟩
  | .local _ .vmem, ⟨4, _⟩ => ⟨S8x32x56x56, .f32⟩
  | .local _ .vmem, ⟨5, _⟩ => ⟨S8x32x56x56, .f32⟩
  | .local _ .vmem, ⟨6, _⟩ => ⟨S32x1, .f32⟩
  | .local _ .vmem, ⟨7, _⟩ => ⟨S32x32, .f32⟩
  | .local _ .vmem, ⟨8, _⟩ => ⟨S1x1x32, .f32⟩
  | .local _ .vmem, ⟨9, _⟩ => ⟨S1x1x32, .f32⟩
  | .local _ .vmem, ⟨10, _⟩ => ⟨S1x1x32, .f32⟩
  | .local _ .vmem, ⟨11, _⟩ => ⟨S1x1x32, .f32⟩
  | .local _ .vmem, ⟨12, _⟩ => ⟨S8x32x56x56, .f32⟩
  | .local _ .vmem, ⟨13, _⟩ => ⟨S8x32x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_call0_v6 : Ref sig .tc := ⟨.hbm, 33, rfl⟩
abbrev main_call0_cst_0 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x32x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S8x32x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S8x32x56x56 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S32x1_S32x1_0_0 : ∀ a, (![0, 0] : Fin 2 → Nat) a + S32x1.size a ≤ S32x1.size a
  h_S32x1 : 0 < S32x1.numel
  inb_S32x32_S32x32_0_0 : ∀ a, (![0, 0] : Fin 2 → Nat) a + S32x32.size a ≤ S32x32.size a
  h_S32x32 : 0 < S32x32.numel
  inb_S16x32x56x56_S16x32x56x56_0_0_0_0 : ∀ a, (![0, 0, 0, 0] : Fin 4 → Nat) a + S16x32x56x56.size a ≤ S16x32x56x56.size a
  h_S16x32x56x56 : 0 < S16x32x56x56.numel
  transposes_S16x32x56x56_p1_0_2_3_S32x16x56x56 : S16x32x56x56.Transposes [1, 0, 2, 3] S32x16x56x56
  shapeCasts_S32x16x56x56_S32x50176 : S32x16x56x56.ShapeCasts S32x50176
  shapeCasts_S32x1_S32x1 : S32x1.ShapeCasts S32x1
  reduces_S32x50176_S32 : S32x50176.Reduces [1] S32
  shapeCasts_S32_S32x1 : S32.ShapeCasts S32x1
  shapeCasts_S32x32_S32x32 : S32x32.ShapeCasts S32x32
  transposes_S32x50176_p1_0_S50176x32 : S32x50176.Transposes [1, 0] S50176x32
  bcast_S_S32x1 : S_.BroadcastsInDim S32x1 (![] : Fin 0 → Fin S32x1.rank)
  bcast_S_S32x32 : S_.BroadcastsInDim S32x32 (![] : Fin 0 → Fin S32x32.rank)
  transposes_S32x1_S1x32_1_0 : S32x1.Transposes [1, 0] S1x32
  reducesTo_S32x32_S_d0_1 : S32x32.ReducesTo [0, 1] S_
  h_S_ : 0 < S_.numel
  shapeCasts_S1x256x1x1_S256 : S1x256x1x1.ShapeCasts S256
  shapeCasts_S256_S8x1x32 : S256.ShapeCasts S8x1x32
  inb_S8x32x56x56_S8x32x56x56_0_0_0_0 : ∀ a, (![0, 0, 0, 0] : Fin 4 → Nat) a + S8x32x56x56.size a ≤ S8x32x56x56.size a
  h_S8x32x56x56 : 0 < S8x32x56x56.numel
  transposes_S8x32x56x56_p1_0_2_3_S32x8x56x56 : S8x32x56x56.Transposes [1, 0, 2, 3] S32x8x56x56
  shapeCasts_S32x8x56x56_S32x25088 : S32x8x56x56.ShapeCasts S32x25088
  broadcasts_S32x1_S32x25088 : S32x1.Broadcasts S32x25088
  shapeCasts_S32x25088_S32x8x56x56 : S32x25088.ShapeCasts S32x8x56x56
  transposes_S32x8x56x56_p1_0_2_3_S8x32x56x56 : S32x8x56x56.Transposes [1, 0, 2, 3] S8x32x56x56
  inb_S1x1x32_S1x1x32_0_0_0 : ∀ a, (![0, 0, 0] : Fin 3 → Nat) a + S1x1x32.size a ≤ S1x1x32.size a
  h_S1x1x32 : 0 < S1x1x32.numel
  shapeCasts_S1x1x32_S1x1x32 : S1x1x32.ShapeCasts S1x1x32
  shapeCasts_S1x1x32_S1x32x1x1 : S1x1x32.ShapeCasts S1x32x1x1
  broadcasts_S1x32x1x1_S8x32x56x56 : S1x32x1x1.Broadcasts S8x32x56x56
  dot_S32x50176_S50176x32_S32x32_1_0_0_1_n_n_wf : DotDims.WF S32x50176 S50176x32 S32x32 [1] [0] [0] [1] [] []
  dot_S32x1_S1x32_S32x32_1_0_0_1_n_n_wf : DotDims.WF S32x1 S1x32 S32x32 [1] [0] [0] [1] [] []
  dot_S32x32_S32x32_S32x32_1_0_0_1_n_n_wf : DotDims.WF S32x32 S32x32 S32x32 [1] [0] [0] [1] [] []
  dot_S32x32_S32x25088_S32x25088_1_0_0_1_n_n_wf : DotDims.WF S32x32 S32x25088 S32x25088 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x56x56.size a ≤ S64x256x56x56.size a
  hwx0_0 : ∀ i : grid0.Coords, EltTy.bits .f32 = 32 ∨ (Rect.block (s := S64x256x56x56) S16x32x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x56x56.size a ≤ S64x256x56x56.size a
  hwx1_0 : ∀ i : grid1.Coords, EltTy.bits .f32 = 32 ∨ (Rect.block (s := S64x256x56x56) S8x32x56x56.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x32.size a ≤ S8x1x32.size a
  hwx1_3 : ∀ i : grid1.Coords, EltTy.bits .f32 = 32 ∨ (Rect.block (s := S8x1x32) S1x1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x32.size a ≤ S8x1x32.size a
  hwx1_4 : ∀ i : grid1.Coords, EltTy.bits .f32 = 32 ∨ (Rect.block (s := S8x1x32) S1x1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x32x56x56.size a ≤ S64x256x56x56.size a
  hwx1_5 : ∀ i : grid1.Coords, EltTy.bits .f32 = 32 ∨ (Rect.block (s := S64x256x56x56) S8x32x56x56.size (cc1_transform_5 i) (hinb1_5 i)).WholeWords (EltTy.packing .f32)

variable [Facts₀]

def dot_S32x50176_S50176x32_S32x32_1_0_0_1_n_n : DotDims S32x50176 S50176x32 S32x32 where
  lhsContracting := [1]
  rhsContracting := [0]
  lhsNonContracting := [0]
  rhsNonContracting := [1]
  lhsBatch := []
  rhsBatch := []
  wf := dot_S32x50176_S50176x32_S32x32_1_0_0_1_n_n_wf
def dot_S32x1_S1x32_S32x32_1_0_0_1_n_n : DotDims S32x1 S1x32 S32x32 where
  lhsContracting := [1]
  rhsContracting := [0]
  lhsNonContracting := [0]
  rhsNonContracting := [1]
  lhsBatch := []
  rhsBatch := []
  wf := dot_S32x1_S1x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x25088_S32x25088_1_0_0_1_n_n : DotDims S32x32 S32x25088 S32x25088 where
  lhsContracting := [1]
  rhsContracting := [0]
  lhsNonContracting := [0]
  rhsNonContracting := [1]
  lhsBatch := []
  rhsBatch := []
  wf := dot_S32x32_S32x25088_S32x25088_1_0_0_1_n_n_wf

abbrev win0_0 : Pipeline.Window sig grid0 :=
  Pipeline.Window.ofSpec (Memref.whole main_arg0) S16x32x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S32x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S32x32.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x32x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S1x1x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v73) S1x1x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v74) S8x32x56x56.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S1x256x1x1 : Shape := ⟨4, ![1, 256, 1, 1]⟩
abbrev S512x32x56x56 : Shape := ⟨4, ![512, 32, 56, 56]⟩
abbrev S32x512x56x56 : Shape := ⟨4, ![32, 512, 56, 56]⟩
abbrev S32x1605632 : Shape := ⟨2, ![32, 1605632]⟩
abbrev S_ : Shape := ⟨0, ![]⟩
abbrev S32 : Shape := ⟨1, ![32]⟩
abbrev S32x1 : Shape := ⟨2, ![32, 1]⟩
abbrev S1605632x32 : Shape := ⟨2, ![1605632, 32]⟩
abbrev S32x32 : Shape := ⟨2, ![32, 32]⟩

abbrev nBuf : Space → Nat
  | .hbm => 113
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S1x256x1x1, .f32⟩
  | .hbm, ⟨2, _⟩ => ⟨S1x256x1x1, .f32⟩
  | .hbm, ⟨3, _⟩ => ⟨S512x32x56x56, .f32⟩
  | .hbm, ⟨4, _⟩ => ⟨S32x512x56x56, .f32⟩
  | .hbm, ⟨5, _⟩ => ⟨S32x1605632, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1605632, .f32⟩
  | .hbm, ⟨13, _⟩ => ⟨S32x1605632, .f32⟩
  | .hbm, ⟨14, _⟩ => ⟨S1605632x32, .f32⟩
  | .hbm, ⟨15, _⟩ => ⟨S32x32, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x32, .i32⟩
  | .hbm, ⟨20, _⟩ => ⟨S32x32, .i32⟩
  | .hbm, ⟨21, _⟩ => ⟨S_, .i32⟩
  | .hbm, ⟨22, _⟩ => ⟨S32x32, .i32⟩
  | .hbm, ⟨23, _⟩ => ⟨S32x32, .i32⟩
  | .hbm, ⟨24, _⟩ => ⟨S32x32, .i1⟩
  | .hbm, ⟨25, _⟩ => ⟨S32x32, .f32⟩
  | .hbm, ⟨26, _⟩ => ⟨S_, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S32x32, .i32⟩
  | .hbm, ⟨31, _⟩ => ⟨S32x32, .i32⟩
  | .hbm, ⟨32, _⟩ => ⟨S_, .i32⟩
  | .hbm, ⟨33, _⟩ => ⟨S32x32, .i32⟩
  | .hbm, ⟨34, _⟩ => ⟨S32x32, .i32⟩
  | .hbm, ⟨35, _⟩ => ⟨S32x32, .i1⟩
  | .hbm, ⟨36, _⟩ => ⟨S_, .f32⟩
  | .hbm, ⟨37, _⟩ => ⟨S32x32, .f32⟩
  | .hbm, ⟨38, _⟩ => ⟨S32x32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32x32, .f32⟩
  | .hbm, ⟨44, _⟩ => ⟨S32x32, .f32⟩
  | .hbm, ⟨45, _⟩ => ⟨S32x32, .i32⟩
  | .hbm, ⟨46, _⟩ => ⟨S32x32, .i32⟩
  | .hbm, ⟨47, _⟩ => ⟨S_, .i32⟩
  | .hbm, ⟨48, _⟩ => ⟨S32x32, .i32⟩
  | .hbm, ⟨49, _⟩ => ⟨S32x32, .i32⟩
  | .hbm, ⟨50, _⟩ => ⟨S32x32, .i1⟩
  | .hbm, ⟨51, _⟩ => ⟨S32x32, .f32⟩
  | .hbm, ⟨52, _⟩ => ⟨S_, .f32⟩
  | .hbm, ⟨53, _⟩ => ⟨S32x32, .f32⟩
  | .hbm, ⟨54, _⟩ => ⟨S32x32, .f32⟩
  | .hbm, ⟨55, _⟩ => ⟨S32x32, .f32⟩
  | .hbm, ⟨56, _⟩ => ⟨S32x32, .f32⟩
  | .hbm, ⟨57, _⟩ => ⟨S_, .f32⟩
  | .hbm, ⟨58, _⟩ => ⟨S32x32, .f32⟩
  | .hbm, ⟨59, _⟩ => ⟨S32x32, .f32⟩
  | .hbm, ⟨60, _⟩ => ⟨S32x32, .f32⟩
  | .hbm, ⟨61, _⟩ => ⟨S32x32, .f32⟩
  | .hbm, ⟨62, _⟩ => ⟨S_, .f32⟩
  | .hbm, ⟨63, _⟩ => ⟨S32x32, .f32⟩
  | .hbm, ⟨64, _⟩ => ⟨S32x32, .f32⟩
  | .hbm, ⟨65, _⟩ => ⟨S32x32, .f32⟩
  | .hbm, ⟨66, _⟩ => ⟨S32x32, .f32⟩
  | .hbm, ⟨67, _⟩ => ⟨S_, .f32⟩
  | .hbm, ⟨68, _⟩ => ⟨S32x32, .f32⟩
  | .hbm, ⟨69, _⟩ => ⟨S32x32, .f32⟩
  | .hbm, ⟨70, _⟩ => ⟨S32x32, .f32⟩
  | .hbm, ⟨71, _⟩ => ⟨S32x32, .f32⟩
  | .hbm, ⟨72, _⟩ => ⟨S_, .f32⟩
  | .hbm, ⟨73, _⟩ => ⟨S32x32, .f32⟩
  | .hbm, ⟨74, _⟩ => ⟨S32x32, .f32⟩
  | .hbm, ⟨75, _⟩ => ⟨S32x32, .f32⟩
  | .hbm, ⟨76, _⟩ => ⟨S32x32, .f32⟩
  | .hbm, ⟨77, _⟩ => ⟨S_, .f32⟩
  | .hbm, ⟨78, _⟩ => ⟨S32x32, .f32⟩
  | .hbm, ⟨79, _⟩ => ⟨S32x32, .f32⟩
  | .hbm, ⟨80, _⟩ => ⟨S32x32, .f32⟩
  | .hbm, ⟨81, _⟩ => ⟨S32x32, .f32⟩
  | .hbm, ⟨82, _⟩ => ⟨S_, .f32⟩
  | .hbm, ⟨83, _⟩ => ⟨S32x32, .f32⟩
  | .hbm, ⟨84, _⟩ => ⟨S32x32, .f32⟩
  | .hbm, ⟨85, _⟩ => ⟨S32x32, .f32⟩
  | .hbm, ⟨86, _⟩ => ⟨S32x32, .f32⟩
  | .hbm, ⟨87, _⟩ => ⟨S_, .f32⟩
  | .hbm, ⟨88, _⟩ => ⟨S32x32, .f32⟩
  | .hbm, ⟨89, _⟩ => ⟨S32x32, .f32⟩
  | .hbm, ⟨90, _⟩ => ⟨S32x32, .f32⟩
  | .hbm, ⟨91, _⟩ => ⟨S32x32, .f32⟩
  | .hbm, ⟨92, _⟩ => ⟨S_, .f32⟩
  | .hbm, ⟨93, _⟩ => ⟨S32x32, .f32⟩
  | .hbm, ⟨94, _⟩ => ⟨S32x32, .f32⟩
  | .hbm, ⟨95, _⟩ => ⟨S32x32, .f32⟩
  | .hbm, ⟨96, _⟩ => ⟨S32x32, .f32⟩
  | .hbm, ⟨97, _⟩ => ⟨S_, .f32⟩
  | .hbm, ⟨98, _⟩ => ⟨S32x32, .f32⟩
  | .hbm, ⟨99, _⟩ => ⟨S32x32, .f32⟩
  | .hbm, ⟨100, _⟩ => ⟨S32x32, .f32⟩
  | .hbm, ⟨101, _⟩ => ⟨S32x32, .f32⟩
  | .hbm, ⟨102, _⟩ => ⟨S_, .f32⟩
  | .hbm, ⟨103, _⟩ => ⟨S32x32, .f32⟩
  | .hbm, ⟨104, _⟩ => ⟨S32x32, .f32⟩
  | .hbm, ⟨105, _⟩ => ⟨S32x1605632, .f32⟩
  | .hbm, ⟨106, _⟩ => ⟨S32x512x56x56, .f32⟩
  | .hbm, ⟨107, _⟩ => ⟨S512x32x56x56, .f32⟩
  | .hbm, ⟨108, _⟩ => ⟨S64x256x56x56, .f32⟩
  | .hbm, ⟨109, _⟩ => ⟨S64x256x56x56, .f32⟩
  | .hbm, ⟨110, _⟩ => ⟨S64x256x56x56, .f32⟩
  | .hbm, ⟨111, _⟩ => ⟨S64x256x56x56, .f32⟩
  | .hbm, ⟨112, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_c : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_call0_v6 : Ref sig .tc := ⟨.hbm, 38, rfl⟩
abbrev main_call0_cst_0 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]

class Facts₀ : Prop where
  shapeCasts_S64x256x56x56_S512x32x56x56 : S64x256x56x56.ShapeCasts S512x32x56x56
  transposes_S512x32x56x56_S32x512x56x56_1_0_2_3 : S512x32x56x56.Transposes [1, 0, 2, 3] S32x512x56x56
  shapeCasts_S32x512x56x56_S32x1605632 : S32x512x56x56.ShapeCasts S32x1605632
  reducesTo_S32x1605632_S32_d1 : S32x1605632.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1605632_0_1 : S32x1.BroadcastsInDim S32x1605632 (![0, 1] : Fin 2 → Fin S32x1605632.rank)
  transposes_S32x1605632_S1605632x32_1_0 : S32x1605632.Transposes [1, 0] S1605632x32
  bcast_S_S32x32 : S_.BroadcastsInDim S32x32 (![] : Fin 0 → Fin S32x32.rank)
  reducesTo_S32x32_S_d0_1 : S32x32.ReducesTo [0, 1] S_
  shapeCasts_S32x1605632_S32x512x56x56 : S32x1605632.ShapeCasts S32x512x56x56
  transposes_S32x512x56x56_S512x32x56x56_1_0_2_3 : S32x512x56x56.Transposes [1, 0, 2, 3] S512x32x56x56
  shapeCasts_S512x32x56x56_S64x256x56x56 : S512x32x56x56.ShapeCasts S64x256x56x56
  bcast_S1x256x1x1_S64x256x56x56_0_1_2_3 : S1x256x1x1.BroadcastsInDim S64x256x56x56 (![0, 1, 2, 3] : Fin 4 → Fin S64x256x56x56.rank)
  dot_S32x1605632_S1605632x32_S32x32_1_0_0_1_n_n_wf : DotDims.WF S32x1605632 S1605632x32 S32x32 [1] [0] [0] [1] [] []
  dot_S32x32_S32x32_S32x32_1_0_0_1_n_n_wf : DotDims.WF S32x32 S32x32 S32x32 [1] [0] [0] [1] [] []
  dot_S32x32_S32x1605632_S32x1605632_1_0_0_1_n_n_wf : DotDims.WF S32x32 S32x1605632 S32x1605632 [1] [0] [0] [1] [] []

variable [Facts₀]

def dot_S32x1605632_S1605632x32_S32x32_1_0_0_1_n_n : DotDims S32x1605632 S1605632x32 S32x32 where
  lhsContracting := [1]
  rhsContracting := [0]
  lhsNonContracting := [0]
  rhsNonContracting := [1]
  lhsBatch := []
  rhsBatch := []
  wf := dot_S32x1605632_S1605632x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x1605632_S32x1605632_1_0_0_1_n_n : DotDims S32x32 S32x1605632 S32x1605632 where
  lhsContracting := [1]
  rhsContracting := [0]
  lhsNonContracting := [0]
  rhsNonContracting := [1]
  lhsBatch := []
  rhsBatch := []
  wf := dot_S32x32_S32x1605632_S32x1605632_1_0_0_1_n_n_wf

class Facts : Prop extends Facts₀ where

variable [Facts]
-- ==== Proof.Spec.lean ====
/-
  The mathematics of the group whitening, stated once over the extended reals and over literal shapes.

  The input x has shape [64, 256, 56, 56]; channel c = 32 j + g belongs to group g (g < 32, j < 8).  Group g's
  samples are the entries x (n, 32 j + g, h, w) over all (n, j, h, w): 64 * 8 * 56 * 56 = 1605632 of them.
  * sumCol / gramM: the per-group sums and the 32 x 32 matrix of sums of products;
  * muCol: the group means (sum divided by the count);
  * sigmaFrom: second moment minus the product of means, plus a fixed matrix E (the ridge);
  * sigmaR: the mean of products of centred samples, plus E — the covariance in its other arrangement;
  * ns: the trace normalisation and the five Newton-Schulz steps, as one function of the covariance matrix;
  * applyAt: the whitened, scaled and shifted output at (n, c, h, w).
-/
import Idealize.ShloMosaic.PureOps.Ideal.Laws
import Idealize.ShloMosaic.Lib.ValueIdx

noncomputable section

namespace Cert.Spec

open Idealize.ShloMosaic Idealize.ShloMosaic.ValueIdx

abbrev SX : Shape := ⟨4, ![64, 256, 56, 56]⟩
abbrev SM : Shape := ⟨2, ![32, 32]⟩
abbrev SC : Shape := ⟨2, ![32, 1]⟩
abbrev S0 : Shape := ⟨0, ![]⟩

/-- Channel 32 j + g: block j of the channel axis, group g. -/
def chan (j : Fin 8) (g : Fin 32) : Fin 256 := ⟨j.val * 32 + g.val, by omega⟩
/-- The group of a channel, and its block. -/
def grp (c : Fin 256) : Fin 32 := ⟨c.val % 32, Nat.mod_lt _ (by decide)⟩
def blk (c : Fin 256) : Fin 8 := ⟨c.val / 32, by omega⟩

theorem chan_blk_grp (c : Fin 256) : chan (blk c) (grp c) = c := Fin.ext (by
  show c.val / 32 * 32 + c.val % 32 = c.val
  omega)

/-- Group g's sample at (n, j, h, w). -/
def xg (x : SX.Idx → EReal) (g : Fin 32) (n : Fin 64) (j : Fin 8) (h w : Fin 56) : EReal := x (ix4 n (chan j g) h w)

/-- The sum over all sample positions (n, j, h, w). -/
def tot (f : Fin 64 → Fin 8 → Fin 56 → Fin 56 → EReal) : EReal := ∑ n, ∑ j, ∑ h, ∑ w, f n j h w

/-- The position of sample (n, j, h, w) in a group's row of 1605632 = 512 * 56 * 56 samples: row-major over (8 n + j, h, w). -/
def flat (n : Fin 64) (j : Fin 8) (h w : Fin 56) : Fin 1605632 :=
  ⟨((n.val * 8 + j.val) * 56 + h.val) * 56 + w.val, by have := n.isLt; have := j.isLt; have := h.isLt; have := w.isLt; omega⟩

/-- The grid point (of the 4 x 8 statistics grid, row-major) whose block holds sample (n, j, ., .): batch tile n / 16,
    channel block j. -/
def pt (n : Fin 64) (j : Fin 8) : Fin 32 := ⟨n.val / 16 * 8 + j.val, by have := n.isLt; have := j.isLt; omega⟩
/-- The position of sample (n, ., h, w) inside that block's row of 50176 = 16 * 56 * 56 samples. -/
def pk (n : Fin 64) (h w : Fin 56) : Fin 50176 :=
  ⟨(n.val % 16 * 56 + h.val) * 56 + w.val, by have := n.isLt; have := h.isLt; have := w.isLt; omega⟩

/-- The number of samples of a group, 1605632, as the single-precision word both programs divide by. -/
def cnt : EReal := Ideal.ofBits .f32 0x49C40000#32

/-- The per-group sums, as a [32, 1] column. -/
def sumCol (x : SX.Idx → EReal) : SC.Idx → EReal := fun i => tot (xg x (i 0))
/-- The sums of products of two groups' samples, as a [32, 32] matrix. -/
def gramM (x : SX.Idx → EReal) : SM.Idx → EReal := fun i => tot fun n j h w => xg x (i 0) n j h w * xg x (i 1) n j h w

/-- Means from sums. -/
def muFrom (s : SC.Idx → EReal) : SC.Idx → EReal := fun i => Ideal.div (s i) cnt
/-- The group means. -/
def muCol (x : SX.Idx → EReal) : SC.Idx → EReal := muFrom (sumCol x)

/-- Second moments minus products of means, plus E: the covariance as the kernel's host code arranges it. -/
def sigmaFrom (E : SM.Idx → EReal) (s : SC.Idx → EReal) (G : SM.Idx → EReal) : SM.Idx → EReal := fun i =>
  (Ideal.div (G i) cnt - muFrom s (ix2 (i 0) 0) * muFrom s (ix2 (i 1) 0)) + E i

/-- Mean of products of centred samples, plus E: the covariance as the reference arranges it. -/
def sigmaR (E : SM.Idx → EReal) (x : SX.Idx → EReal) : SM.Idx → EReal := fun i =>
  Ideal.div (tot fun n j h w => (xg x (i 0) n j h w - muCol x (ix2 (i 0) 0)) * (xg x (i 1) n j h w - muCol x (ix2 (i 1) 0))) cnt + E i

/-- The output at (n, c, h, w): row grp c of wm against the centred samples of block blk c at (n, h, w), then the
    channel's scale and shift. -/
def applyAt (wm : SM.Idx → EReal) (mu : SC.Idx → EReal) (x : SX.Idx → EReal) (wv bv : Fin 256 → EReal)
    (n : Fin 64) (c : Fin 256) (h w : Fin 56) : EReal :=
  (∑ k : Fin 32, wm (ix2 (grp c) k) * (x (ix4 n (chan (blk c) k) h w) - mu (ix2 k 0))) * wv c + bv c

/-- The output array. -/
def apply (wm : SM.Idx → EReal) (mu : SC.Idx → EReal) (x : SX.Idx → EReal) (wv bv : Fin 256 → EReal) : SX.Idx → EReal :=
  fun i => applyAt wm mu x wv bv (i 0) (i 1) (i 2) (i 3)

/-! ## The host chain shared by both programs, as one function of the covariance matrix

Stated with the very operations both programs print, over shape facts and a record of dimension numbers passed in
(each program cites its own; as propositions, or records that differ only in a proof, they are interchangeable). -/

section Chain
variable (D : DotDims SM SM SM) (hb : S0.BroadcastsInDim SM (![] : Fin 0 → Fin SM.rank))
  (hr : SM.ReducesTo [0, 1] S0) (hS : 0 < S0.numel)

/-- The identity pattern: 1 where the row index equals the column index. -/
def eyeMask : IVec SM 1 :=
  cmpi .eq (addi (iotaInDim SM 32 0) (broadcastInDim SM ![] hb (constantI S0 32 0#32))) (iotaInDim SM 32 1)

/-- The identity matrix. -/
def eye : FVec Ideal SM .f32 := uitofp .f32 (eyeMask hb)

/-- The ridge: 1e-5 (as a single-precision word) times the identity. -/
def epsEye : FVec Ideal SM .f32 :=
  mulf (broadcastInDim SM ![] hb (constant S0 .f32 0x3727C5AC#32)) (eye hb)

/-- The trace: the diagonal selected against zero, summed over both axes from zero. -/
def trace (σ : FVec Ideal SM .f32) : FVec Ideal S0 .f32 :=
  Host.reduceAdd (select (eyeMask hb) σ (broadcastInDim SM ![] hb (constant S0 .f32 0x00000000#32)))
    (constant S0 .f32 0x00000000#32) hr hS

/-- One Newton-Schulz step: 1.5 P - (0.5 (P P P)) S. -/
def nsStep (P S : FVec Ideal SM .f32) : FVec Ideal SM .f32 :=
  subf (mulf (broadcastInDim SM ![] hb (constant S0 .f32 0x3FC00000#32)) P)
    (Host.dotGeneral D none
      (mulf (broadcastInDim SM ![] hb (constant S0 .f32 0x3F000000#32)) (Host.dotGeneral D none (Host.dotGeneral D none P P) P)) S)

/-- The reciprocal of the trace. -/
def traceInv (σ : FVec Ideal SM .f32) : FVec Ideal S0 .f32 :=
  Host.divf (constant S0 .f32 0x3F800000#32) (trace hb hr hS σ)

/-- The covariance scaled to unit trace. -/
def sigmaN (σ : FVec Ideal SM .f32) : FVec Ideal SM .f32 :=
  mulf σ (broadcastInDim SM ![] hb (traceInv hb hr hS σ))

/-- Five steps from the identity, then the scale back by the square root of the reciprocal trace. -/
def ns (σ : FVec Ideal SM .f32) : FVec Ideal SM .f32 :=
  mulf (nsStep D hb (nsStep D hb (nsStep D hb (nsStep D hb (nsStep D hb (eye hb) (sigmaN hb hr hS σ)) (sigmaN hb hr hS σ))
      (sigmaN hb hr hS σ)) (sigmaN hb hr hS σ)) (sigmaN hb hr hS σ))
    (broadcastInDim SM ![] hb (Host.sqrt (traceInv hb hr hS σ)))

end Chain

end Cert.Spec

end
-- ==== Proof.SpecAlg.lean ====
/-
  The algebra over the extended reals that joins the two arrangements of the covariance, and the regroupings of a
  group's sum over all sample positions.
-/
import proofs.«173520_j44676249813412_1_alg».proof.Proof.Spec

noncomputable section

namespace Cert.Spec

open Idealize.ShloMosaic Idealize.ShloMosaic.ValueIdx

/-- The divisor's word denotes the number of samples of a group. -/
theorem cnt_eq : cnt = ((1605632 : ℝ) : EReal) := by
  simp [cnt, Ideal.ofBits, Ideal.ieee, -EReal.coe_mul]; norm_num

/-! ### Regrouping a sum over all sample positions

A sample position is a quadruple (n, j, h, w).  Both regroupings are reindexings along an injective map from the
quadruples into an index set of the same size. -/

/-- The quadruples (n, j, h, w). -/
private abbrev Pos : Type := Fin 64 × Fin 8 × Fin 56 × Fin 56

/-- The sum over all positions is the sum over the quadruples. -/
private theorem tot_eq_sum_pos (f : Fin 64 → Fin 8 → Fin 56 → Fin 56 → EReal) :
    tot f = ∑ p : Pos, f p.1 p.2.1 p.2.2.1 p.2.2.2 := by
  unfold tot
  simp only [Fintype.sum_prod_type]

/-- Row-major flattening of a quadruple. -/
private def flatP (p : Pos) : Fin 1605632 := flat p.1 p.2.1 p.2.2.1 p.2.2.2

/-- Mixed-radix digits are unique: the flattening is one-to-one, hence onto a set of the same size. -/
private theorem flatP_bijective : Function.Bijective flatP := by
  rw [Fintype.bijective_iff_injective_and_card]
  refine ⟨?_, by simp [Fintype.card_prod, Fintype.card_fin]⟩
  rintro ⟨n, j, h, w⟩ ⟨n', j', h', w'⟩ e
  have e' : ((n.val * 8 + j.val) * 56 + h.val) * 56 + w.val = ((n'.val * 8 + j'.val) * 56 + h'.val) * 56 + w'.val :=
    congrArg Fin.val e
  have := n.isLt; have := j.isLt; have := h.isLt; have := w.isLt
  have := n'.isLt; have := j'.isLt; have := h'.isLt; have := w'.isLt
  have hn : n = n' := Fin.ext (by omega)
  have hj : j = j' := Fin.ext (by omega)
  have hh : h = h' := Fin.ext (by omega)
  have hw : w = w' := Fin.ext (by omega)
  rw [hn, hj, hh, hw]

/-- A sum over a group's row of 1605632 positions is the sum over (n, j, h, w). -/
theorem sum_flat (f : Fin 1605632 → EReal) : ∑ i, f i = tot fun n j h w => f (flat n j h w) := by
  rw [tot_eq_sum_pos]
  exact (Fintype.sum_bijective flatP flatP_bijective _ _ (fun _ => rfl)).symm

/-- The grid point and the in-block position of a quadruple. -/
private def blockP (p : Pos) : Fin 32 × Fin 50176 := (pt p.1 p.2.1, pk p.1 p.2.2.1 p.2.2.2)

/-- The batch index n splits as (n / 16, n % 16); with that, (grid point, in-block position) determines the
    quadruple, and the two index sets have the same size. -/
private theorem blockP_bijective : Function.Bijective blockP := by
  rw [Fintype.bijective_iff_injective_and_card]
  refine ⟨?_, by simp [Fintype.card_prod, Fintype.card_fin]⟩
  rintro ⟨n, j, h, w⟩ ⟨n', j', h', w'⟩ e
  have e1 : n.val / 16 * 8 + j.val = n'.val / 16 * 8 + j'.val :=
    congrArg (fun q : Fin 32 × Fin 50176 => q.1.val) e
  have e2 : (n.val % 16 * 56 + h.val) * 56 + w.val = (n'.val % 16 * 56 + h'.val) * 56 + w'.val :=
    congrArg (fun q : Fin 32 × Fin 50176 => q.2.val) e
  have := n.isLt; have := j.isLt; have := h.isLt; have := w.isLt
  have := n'.isLt; have := j'.isLt; have := h'.isLt; have := w'.isLt
  have hn : n = n' := Fin.ext (by omega)
  have hj : j = j' := Fin.ext (by omega)
  have hh : h = h' := Fin.ext (by omega)
  have hw : w = w' := Fin.ext (by omega)
  rw [hn, hj, hh, hw]

/-- A sum over the 32 grid points and the 50176 positions of each point's block row is the sum over (n, j, h, w). -/
theorem sum_blocks (f : Fin 32 → Fin 50176 → EReal) : ∑ t, ∑ k, f t k = tot fun n j h w => f (pt n j) (pk n h w) := by
  rw [tot_eq_sum_pos, ← Fintype.sum_prod_type' (f := f)]
  exact (Fintype.sum_bijective blockP blockP_bijective _ _ (fun _ => rfl)).symm

/-! ### The two arrangements of the covariance -/

/-- A finite sum of reals, read in the extended reals, is the real sum. -/
private theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum over all positions of real samples is real. -/
private theorem tot_coe (f : Fin 64 → Fin 8 → Fin 56 → Fin 56 → ℝ) :
    tot (fun n j h w => ((f n j h w : ℝ) : EReal)) = ((∑ p : Pos, f p.1 p.2.1 p.2.2.1 p.2.2.2 : ℝ) : EReal) := by
  rw [tot_eq_sum_pos, coe_sum]

/-- Dividing a real by the sample count. -/
private theorem div_cnt (r : ℝ) : Ideal.div (r : EReal) cnt = ((r / 1605632 : ℝ) : EReal) := by
  rw [cnt_eq, Ideal.div_coe (by norm_num : (1605632 : ℝ) ≠ 0), ← EReal.coe_mul, mul_one_div]

/-- Over the reals, with N the number of indices: the mean of products minus the product of means is the mean of
    products of the centred values. -/
private theorem real_cov {ι : Type*} [Fintype ι] (N : ℝ) (hN : (Fintype.card ι : ℝ) = N) (hN0 : N ≠ 0)
    (a b : ι → ℝ) :
    (∑ i, a i * b i) / N - (∑ i, a i) / N * ((∑ i, b i) / N)
      = (∑ i, (a i - (∑ i, a i) / N) * (b i - (∑ i, b i) / N)) / N := by
  have expand : ∀ i, (a i - (∑ i, a i) / N) * (b i - (∑ i, b i) / N)
      = a i * b i - (∑ i, b i) / N * a i - (∑ i, a i) / N * b i + (∑ i, a i) / N * ((∑ i, b i) / N) := by
    intro i; ring
  simp only [expand, Finset.sum_add_distrib, Finset.sum_sub_distrib, ← Finset.mul_sum, Finset.sum_const,
    Finset.card_univ, nsmul_eq_mul, hN]
  field_simp
  ring

/-- The same over the extended reals, for real samples indexed by position. -/
private theorem cov_alg (a b : Fin 64 → Fin 8 → Fin 56 → Fin 56 → ℝ) :
    Ideal.div (tot fun n j h w => ((a n j h w : ℝ) : EReal) * ((b n j h w : ℝ) : EReal)) cnt
        - Ideal.div (tot fun n j h w => ((a n j h w : ℝ) : EReal)) cnt
          * Ideal.div (tot fun n j h w => ((b n j h w : ℝ) : EReal)) cnt
      = Ideal.div (tot fun n j h w =>
          (((a n j h w : ℝ) : EReal) - Ideal.div (tot fun n j h w => ((a n j h w : ℝ) : EReal)) cnt)
          * (((b n j h w : ℝ) : EReal) - Ideal.div (tot fun n j h w => ((b n j h w : ℝ) : EReal)) cnt)) cnt := by
  simp only [tot_coe, div_cnt, ← EReal.coe_mul, ← EReal.coe_sub]
  refine congrArg _ ?_
  exact real_cov (ι := Pos) 1605632 (by simp [Fintype.card_prod, Fintype.card_fin]) (by norm_num) _ _

/-- The identity for two groups g0, g1, with the means written out as sums divided by the count. -/
private theorem sigma_core (x : SX.Idx → EReal) (r : SX.Idx → ℝ) (hr : ∀ i, x i = ((r i : ℝ) : EReal)) (g0 g1 : Fin 32) :
    Ideal.div (tot fun n j h w => xg x g0 n j h w * xg x g1 n j h w) cnt
        - Ideal.div (tot (xg x g0)) cnt * Ideal.div (tot (xg x g1)) cnt
      = Ideal.div (tot fun n j h w => (xg x g0 n j h w - Ideal.div (tot (xg x g0)) cnt)
          * (xg x g1 n j h w - Ideal.div (tot (xg x g1)) cnt)) cnt := by
  have hxg : ∀ g, xg x g = fun n j h w => ((r (ix4 n (chan j g) h w) : ℝ) : EReal) := by
    intro g; funext n j h w; exact hr _
  rw [hxg g0, hxg g1]
  exact cov_alg _ _

/-- For finite samples: second moments minus products of means is the mean of products of centred samples. -/
theorem sigma_eq (E : SM.Idx → EReal) (x : SX.Idx → EReal) (hx : ∀ i, ∃ r : ℝ, x i = (r : EReal)) :
    sigmaFrom E (sumCol x) (gramM x) = sigmaR E x := by
  choose r hr using hx
  funext i
  exact congrArg (· + E i) (sigma_core x r hr (i 0) (i 1))

end Cert.Spec

end
-- ==== Proof.Finite.lean ====
/-
  From the precondition to finiteness: if the printed predicate (every entry of each input strictly below +inf in
  absolute value) is all ones, every entry of the first input is a real number.
-/
import proofs.«173520_j44676249813412_1_alg».proof.Pre_finite_inputs
import proofs.«173520_j44676249813412_1_alg».proof.Proof.Gen.Pre_finite_inputs
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx Cert.Pre_finite_inputs

/-- The pattern of +inf denotes the top element. -/
private theorem ofBits_inf : Ideal.ofBits .f32 0x7F800000#32 = (⊤ : EReal) := by
  simp [Ideal.ofBits, Ideal.ieee]

/-- An extended real whose absolute value max a (-a) lies strictly below the top element is a real number. -/
private theorem real_of_abs_lt_top (a : EReal) (h : max a (-a) < ⊤) : ∃ r : ℝ, a = (r : EReal) := by
  induction a using EReal.rec with
  | bot => simp at h
  | coe r => exact ⟨r, rfl⟩
  | top => simp at h

/-- The rank-0 index set has one element. -/
private instance : Subsingleton S_.Idx := ⟨fun a b => funext fun d => d.elim0⟩

/-- Under the precondition every entry of the first input is a real number. -/
theorem real_of_pre (x : FVec Ideal S64x256x56x56 .f32) (w b : FVec Ideal S1x256x1x1 .f32)
    (h : Cert.Pre_finite_inputs.fn (F := Ideal) x w b = fun _ => 1#1) (i : S64x256x56x56.Idx) :
    ∃ r : ℝ, x i = (r : EReal) := by
  have h0 := congrFun h ValueIdx.ix0
  dsimp only [Cert.Pre_finite_inputs.fn] at h0
  have h1 := (IntOp.andi_eq_one.1 (IntOp.andi_eq_one.1 h0).1).1
  have h2 := Host.reduce_andi_all _ _ _ _ _ h1 i
  have h3 : Ideal.cmp .olt (max (x i) (-(x i))) (Ideal.ofBits .f32 0x7F800000#32) = 1#1 := h2
  rw [ofBits_inf] at h3
  have h4 : max (x i) (-(x i)) < ⊤ := by
    by_contra hc
    simp [Ideal.cmp, hc] at h3
  exact real_of_abs_lt_top _ h4

end Cert.Finite

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowSum.lean ====
/-
  A general lemma for reading a kernel's lane reduction at an index, at the ideal instance.

  * `multiReduction_add_rows_apply`: the sum of an [R, K] single-precision vector along its last axis, accumulated
    from the zero word, read at row r, is the sum over k of the vector at (r, k).
-/
import Idealize.ShloMosaic.PureOps.Ideal.Laws
import Idealize.ShloMosaic.Lib.ValueIdx

noncomputable section

namespace Cert.LibRowSum

open Idealize.ShloMosaic Idealize.ShloMosaic.ValueIdx

/-- A row-wise add reduction of an [R, K] vector read at row r: ∑ₖ v (r, k). -/
theorem multiReduction_add_rows_apply {R K : ℕ} (v : FVec Ideal ⟨2, ![R, K]⟩ .f32)
    (h : (⟨2, ![R, K]⟩ : Shape).Reduces [1] ⟨1, ![R]⟩) (hφ : FKind.Formats .f32)
    (hacc : (0x00000000#32 : BitVec 32) = FKind.add.neutral .f32 hφ) (r : Fin R) :
    multiReduction .add [1] ⟨1, ![R]⟩ v 0x00000000#32 h hφ hacc (ix1 r) = ∑ k : Fin K, v (ix2 r k) := by
  refine (Ideal.multiReduction_add_single v _ h hφ hacc (ix1 r)).trans ?_
  refine Finset.sum_congr rfl fun k _ => ?_
  exact congrArg v (funext fun a => Fin.ext (by match a with | ⟨0, _⟩ => rfl | ⟨1, _⟩ => rfl))

end Cert.LibRowSum

end
-- ==== Proof.KStats.lean ====
/-
  The statistics pass read as values: after the last of its 32 grid points the two accumulated outputs hold each
  group's sum and the matrix of sums of products over all sample positions.
-/
import proofs.«173520_j44676249813412_1_alg».proof.Proof.Gen.KernelIdeal.Frame
import proofs.«173520_j44676249813412_1_alg».proof.Proof.Spec
import proofs.«173520_j44676249813412_1_alg».proof.Proof.SpecAlg
import proofs.«173520_j44676249813412_1_alg».proof.Proof.LibPlainDot
import proofs.«173520_j44676249813412_1_alg».proof.Proof.LibRowSum
import Idealize.ShloMosaic.Lib.Pipeline.Value

noncomputable section

namespace Cert.KernelIdeal.KStats

open Idealize.ShloMosaic Idealize.ShloMosaic.TcCoe Idealize.ShloMosaic.ValueIdx Idealize.SL.Sem
open Idealize.ShloMosaic.Pipeline (Dat)
open Cert.KernelIdeal Cert.KernelIdeal.Gen

/-! ## What one grid point leaves in the two accumulators -/

section Pieces
variable {F : FTy → Type} [FloatOps F]

private theorem hz2 : (![0, 0] : Fin 2 → Nat) = fun _ => 0 := funext fun a => by fin_cases a <;> rfl
private theorem hz4 : (![0, 0, 0, 0] : Fin 4 → Nat) = fun _ => 0 := funext fun a => by fin_cases a <;> rfl

/-- At a point other than the first the column accumulator ends at its old contents plus the block's row sums. -/
private theorem out_B_1 (c : Dev nD) (i : grid0.Coords) (a2 : Memref sig .tc .vmem S16x32x56x56 .f32) (h2 : a2.IsWhole)
    (a3 : Memref sig .tc .vmem S32x1 .f32) (h3 : a3.IsWhole) (a4 : Memref sig .tc .vmem S32x32 .f32) (h4 : a4.IsWhole)
    (hc : ¬cond0_0 i) (x : Vec F S16x32x56x56 .f32) (xo1 : Vec F S32x1 .f32) (xo2 : Vec F S32x32 .f32) :
    out0_B_1 c i a2 h2 a3 h3 a4 h4 hc x xo1 xo2 = k0_pay4 x xo1 := by
  unfold out0_B_1
  rw [View.read_writes_eq_canon _ _ _ (cover0_B_1 c i a2 h2 a3 h3 a4 h4 hc x xo1 xo2)]
  unfold kernelRun0_B
  dsimp only
  sl_unfold_words
  rw [View.canon_unit_zero hz2]
  simp only [View.readAt_eq_ld, h2.read_unread, h3.read_unread, View.ld_unit_zero (S := S16x32x56x56) hz4,
    View.ld_unit_zero (S := S32x1) hz2]

/-- At a point other than the first the matrix accumulator ends at its old contents plus the block's products. -/
private theorem out_B_2 (c : Dev nD) (i : grid0.Coords) (a2 : Memref sig .tc .vmem S16x32x56x56 .f32) (h2 : a2.IsWhole)
    (a3 : Memref sig .tc .vmem S32x1 .f32) (h3 : a3.IsWhole) (a4 : Memref sig .tc .vmem S32x32 .f32) (h4 : a4.IsWhole)
    (hc : ¬cond0_0 i) (x : Vec F S16x32x56x56 .f32) (xo1 : Vec F S32x1 .f32) (xo2 : Vec F S32x32 .f32) :
    out0_B_2 c i a2 h2 a3 h3 a4 h4 hc x xo1 xo2 = k0_pay5 x xo2 := by
  unfold out0_B_2
  rw [View.read_writes_eq_canon _ _ _ (cover0_B_2 c i a2 h2 a3 h3 a4 h4 hc x xo1 xo2)]
  unfold kernelRun0_B
  dsimp only
  sl_unfold_words
  rw [View.canon_unit_zero hz2]
  simp only [View.readAt_eq_ld, h2.read_unread, h4.read_unread, View.ld_unit_zero (S := S16x32x56x56) hz4,
    View.ld_unit_zero (S := S32x32) hz2]

/-- At the first point the column accumulator is reset and then updated: zero plus the block's row sums. -/
private theorem out_A_1 (c : Dev nD) (i : grid0.Coords) (a2 : Memref sig .tc .vmem S16x32x56x56 .f32) (h2 : a2.IsWhole)
    (a3 : Memref sig .tc .vmem S32x1 .f32) (h3 : a3.IsWhole) (a4 : Memref sig .tc .vmem S32x32 .f32) (h4 : a4.IsWhole)
    (hc : cond0_0 i) (x : Vec F S16x32x56x56 .f32) :
    out0_A_1 c i a2 h2 a3 h3 a4 h4 hc x = k0_pay4 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S32x1) hz2, View.readCov_unit_zero (S := S32x1) _ hz2]
  simp only [View.readAt_eq_ld, h2.read_unread, View.ld_unit_zero (S := S16x32x56x56) hz4]

/-- At the first point the matrix accumulator is reset and then updated: zero plus the block's products. -/
private theorem out_A_2 (c : Dev nD) (i : grid0.Coords) (a2 : Memref sig .tc .vmem S16x32x56x56 .f32) (h2 : a2.IsWhole)
    (a3 : Memref sig .tc .vmem S32x1 .f32) (h3 : a3.IsWhole) (a4 : Memref sig .tc .vmem S32x32 .f32) (h4 : a4.IsWhole)
    (hc : cond0_0 i) (x : Vec F S16x32x56x56 .f32) :
    out0_A_2 c i a2 h2 a3 h3 a4 h4 hc x = k0_pay5 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S32x32) hz2, View.readCov_unit_zero (S := S32x32) _ hz2]
  simp only [View.readAt_eq_ld, h2.read_unread, View.ld_unit_zero (S := S16x32x56x56) hz4]

end Pieces

/-! ## The block's arithmetic, entry by entry, over the extended reals -/

section Payloads

/-- The block with its batch and channel axes swapped and its last three axes flattened: row g, position
    (n * 56 + h) * 56 + w holds the block's entry (n, g, h, w). -/
private theorem pay3_apply (x : Vec Ideal S16x32x56x56 .f32) (g : Fin 32) (n : Fin 16) (h w : Fin 56) (k : Fin 50176)
    (hk : k.val = (n.val * 56 + h.val) * 56 + w.val) :
    k0_pay3 (F := Ideal) x (ix2 g k) = x (ix4 n g h w) := by
  unfold k0_pay3
  refine (shapeCast_apply _ _ (ix2 g k) (ix4 g n h w) ?_).trans ?_
  · rw [Shape.rowMajor_val_four, Shape.rowMajor_val_two]
    show ((g.val * 16 + n.val) * 56 + h.val) * 56 + w.val = g.val * 50176 + k.val
    omega
  · exact transpose_apply _ x _ (ix4 g n h w) (ix4 n g h w) fun b =>
      match b with | ⟨0, _⟩ => rfl | ⟨1, _⟩ => rfl | ⟨2, _⟩ => rfl | ⟨3, _⟩ => rfl

/-- The column update: the accumulator's entry plus the sum of the recast block's row. -/
private theorem pay4_apply (x : Vec Ideal S16x32x56x56 .f32) (acc : Vec Ideal S32x1 .f32) (g : Fin 32) :
    k0_pay4 (F := Ideal) x acc (ix2 g (0 : Fin 1))
      = acc (ix2 g (0 : Fin 1)) + ∑ k : Fin 50176, k0_pay3 (F := Ideal) x (ix2 g k) := by
  unfold k0_pay4
  refine (addf_apply _ _ _).trans (congr (congrArg HAdd.hAdd ?_) ?_)
  · exact congrFun (shapeCast_self acc _) _
  · refine (Cert.Lib.shapeCast_a_a1_apply _ _ g (0 : Fin 1)).trans ?_
    exact Cert.LibRowSum.multiReduction_add_rows_apply (R := 32) (K := 50176) (k0_pay3 (F := Ideal) x) _ _ _ g

private abbrev DD := dot_S32x50176_S50176x32_S32x32_1_0_0_1_n_n

private theorem dd_rank : DD.contr.rank = 1 := rfl
private theorem dd_size : DD.contr.size ⟨0, Nat.lt_of_lt_of_eq Nat.zero_lt_one dd_rank.symm⟩ = 50176 := rfl
private theorem dd_l0 (i : S32x32.Idx) (q : DD.contr.Idx) : (DD.lhsIdx i q 0).val = (i 0).val := rfl
private theorem dd_l1 (i : S32x32.Idx) (q : DD.contr.Idx) :
    (DD.lhsIdx i q 1).val = (q ⟨0, Nat.lt_of_lt_of_eq Nat.zero_lt_one dd_rank.symm⟩).val := rfl
private theorem dd_r0 (i : S32x32.Idx) (q : DD.contr.Idx) :
    (DD.rhsIdx i q 0).val = (q ⟨0, Nat.lt_of_lt_of_eq Nat.zero_lt_one dd_rank.symm⟩).val := rfl
private theorem dd_r1 (i : S32x32.Idx) (q : DD.contr.Idx) : (DD.rhsIdx i q 1).val = (i 1).val := rfl

/-- The matrix update: the accumulator's entry plus the sum of products of two rows of the recast block. -/
private theorem pay5_apply (x : Vec Ideal S16x32x56x56 .f32) (acc : Vec Ideal S32x32 .f32) (g h : Fin 32) :
    k0_pay5 (F := Ideal) x acc (ix2 g h)
      = acc (ix2 g h) + ∑ k : Fin 50176, k0_pay3 (F := Ideal) x (ix2 g k) * k0_pay3 (F := Ideal) x (ix2 h k) := by
  unfold k0_pay5
  refine (addf_apply _ _ _).trans (congr (congrArg HAdd.hAdd ?_) ?_)
  · exact congrFun (shapeCast_self acc _) _
  · refine (Cert.Lib.matmul_plain_apply (M := 32) (K := 50176) (N := 32) DD dd_rank dd_size dd_l0 dd_l1 dd_r0 dd_r1
      none _ _ g h).trans ?_
    refine Finset.sum_congr rfl fun k _ => ?_
    exact congrArg (k0_pay3 (F := Ideal) x (ix2 g k) * ·) (transpose_ix2_apply (k0_pay3 (F := Ideal) x) _ k h)

end Payloads

variable (V : (c : Dev nD) → (b : Ref sig .tc) → Buf (Elt Ideal) ((c : Thread nD τ).loc b))

/-! ## The input's blocks -/

/-- The pass's input array, and its block at a grid point, at their literal types. -/
private abbrev xarr (c : Dev nD) : Vec Ideal S64x256x56x56 .f32 := V c main_arg0
private abbrev xblk (c : Dev nD) (t : Fin cfg0.N) : Vec Ideal S16x32x56x56 .f32 := iblk0 V c 0 t

/-- Grid point t = 8 a + b holds batch tile a and channel block b: on the first two axes the block index is
    (t / 8, t % 8), on the last two it is zero. -/
private theorem index0 : ∀ t : Fin cfg0.N, win0_0.index t 0 = t.val / 8 ∧ win0_0.index t 1 = t.val % 8
    ∧ win0_0.index t 2 = 0 ∧ win0_0.index t 3 = 0 :=
  (by decide +kernel : ∀ t : Fin grid0.N, win0_0.index t 0 = t.val / 8 ∧ win0_0.index t 1 = t.val % 8
    ∧ win0_0.index t 2 = 0 ∧ win0_0.index t 3 = 0)

/-- Entry (n, g, h, w) of the block at point t is the array's entry (16 (t / 8) + n, 32 (t % 8) + g, h, w). -/
private theorem xblk_apply (c : Dev nD) (t : Fin cfg0.N) (n : Fin 16) (g : Fin 32) (h w : Fin 56)
    (N : Fin 64) (C : Fin 256) (hN : N.val = t.val / 8 * 16 + n.val) (hC : C.val = t.val % 8 * 32 + g.val) :
    xblk V c t (ix4 n g h w) = xarr V c (ix4 N C h w) := by
  unfold xblk iblk0
  rw [View.read_apply]
  show V c main_arg0 _ = V c main_arg0 _
  refine congrArg (V c main_arg0) (funext fun a => Fin.ext ?_)
  obtain ⟨i0, i1, i2, i3⟩ := index0 t
  match a with
  | ⟨0, _⟩ => show win0_0.index t 0 * 16 + 1 * n.val = N.val; rw [i0, hN]; omega
  | ⟨1, _⟩ => show win0_0.index t 1 * 32 + 1 * g.val = C.val; rw [i1, hC]; omega
  | ⟨2, _⟩ => show win0_0.index t 2 * 56 + 1 * h.val = h.val; rw [i2]; omega
  | ⟨3, _⟩ => show win0_0.index t 3 * 56 + 1 * w.val = w.val; rw [i3]; omega

/-! ## The running accumulators -/

/-- The column accumulator after point n: reset before the first block, then updated with each block in turn. -/
private def chain1 (c : Dev nD) : (n : ℕ) → n < cfg0.N → Vec Ideal S32x1 .f32
  | 0, h => k0_pay4 (F := Ideal) (xblk V c ⟨0, h⟩) (k0_pay1 (F := Ideal))
  | n + 1, h => k0_pay4 (F := Ideal) (xblk V c ⟨n + 1, h⟩) (chain1 c n (Nat.lt_of_succ_lt h))

/-- The matrix accumulator after point n, likewise. -/
private def chain2 (c : Dev nD) : (n : ℕ) → n < cfg0.N → Vec Ideal S32x32 .f32
  | 0, h => k0_pay5 (F := Ideal) (xblk V c ⟨0, h⟩) (k0_pay2 (F := Ideal))
  | n + 1, h => k0_pay5 (F := Ideal) (xblk V c ⟨n + 1, h⟩) (chain2 c n (Nat.lt_of_succ_lt h))

/-- What the two staging buffers hold after point n is the pair of running accumulators: by induction on the point. -/
private theorem outsAt_eq (c : Dev nD) :
    ∀ (n : ℕ) (h : n < cfg0.N), outsAt0 V c n h = (chain1 V c n h, chain2 V c n h)
  | 0, h => by
    rw [outsAt0_A V c ⟨0, h⟩ rfl]
    exact congrArg₂ Prod.mk
      (out_A_1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk0 V c 0 ⟨0, h⟩))
      (out_A_2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk0 V c 0 ⟨0, h⟩))
  | n + 1, h => by
    have hN : cfg0.N = 32 := N_0
    have hB : ¬(⟨n + 1, h⟩ : Fin cfg0.N).val % 32 = 0 := by dsimp only; omega
    have ih := outsAt_eq c n (Nat.lt_of_succ_lt h)
    rw [outsAt0_B V c ⟨n + 1, h⟩ hB]
    refine congrArg₂ Prod.mk
      ((out_B_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk0 V c 0 ⟨n + 1, h⟩) _ _).trans ?_)
      ((out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk0 V c 0 ⟨n + 1, h⟩) _ _).trans ?_)
    · show k0_pay4 (F := Ideal) (xblk V c ⟨n + 1, h⟩) (outsAt0 V c n (Nat.lt_of_succ_lt h)).1
        = k0_pay4 (F := Ideal) (xblk V c ⟨n + 1, h⟩) (chain1 V c n (Nat.lt_of_succ_lt h))
      rw [ih]
    · show k0_pay5 (F := Ideal) (xblk V c ⟨n + 1, h⟩) (outsAt0 V c n (Nat.lt_of_succ_lt h)).2
        = k0_pay5 (F := Ideal) (xblk V c ⟨n + 1, h⟩) (chain2 V c n (Nat.lt_of_succ_lt h))
      rw [ih]

/-- What the block at point t adds to group g's sum (nothing beyond the grid). -/
private def rowSum (c : Dev nD) (g : Fin 32) (t : ℕ) : EReal :=
  if h : t < cfg0.N then ∑ k : Fin 50176, k0_pay3 (F := Ideal) (xblk V c ⟨t, h⟩) (ix2 g k) else 0

/-- What the block at point t adds to the sum of products of groups g and g'. -/
private def prodSum (c : Dev nD) (g g' : Fin 32) (t : ℕ) : EReal :=
  if h : t < cfg0.N then
    ∑ k : Fin 50176, k0_pay3 (F := Ideal) (xblk V c ⟨t, h⟩) (ix2 g k) * k0_pay3 (F := Ideal) (xblk V c ⟨t, h⟩) (ix2 g' k)
  else 0

/-- After point n the column accumulator's entry g is the sum of the first n + 1 blocks' contributions. -/
private theorem chain1_apply (c : Dev nD) (g : Fin 32) : ∀ (n : ℕ) (h : n < cfg0.N),
    chain1 V c n h (ix2 g (0 : Fin 1)) = ∑ t ∈ Finset.range (n + 1), rowSum V c g t
  | 0, h => by
    rw [Finset.sum_range_one]
    unfold rowSum
    rw [dif_pos h]
    refine (pay4_apply (xblk V c ⟨0, h⟩) (k0_pay1 (F := Ideal)) g).trans ?_
    show Ideal.ofBits .f32 0x00000000#32 + _ = _
    rw [Ideal.ofBits_zero_f32, zero_add]
  | n + 1, h => by
    rw [Finset.sum_range_succ, ← chain1_apply c g n (Nat.lt_of_succ_lt h)]
    unfold rowSum
    rw [dif_pos h]
    exact pay4_apply (xblk V c ⟨n + 1, h⟩) (chain1 V c n (Nat.lt_of_succ_lt h)) g

/-- After point n the matrix accumulator's entry (g, g') is the sum of the first n + 1 blocks' contributions. -/
private theorem chain2_apply (c : Dev nD) (g g' : Fin 32) : ∀ (n : ℕ) (h : n < cfg0.N),
    chain2 V c n h (ix2 g g') = ∑ t ∈ Finset.range (n + 1), prodSum V c g g' t
  | 0, h => by
    rw [Finset.sum_range_one]
    unfold prodSum
    rw [dif_pos h]
    refine (pay5_apply (xblk V c ⟨0, h⟩) (k0_pay2 (F := Ideal)) g g').trans ?_
    show Ideal.ofBits .f32 0x00000000#32 + _ = _
    rw [Ideal.ofBits_zero_f32, zero_add]
  | n + 1, h => by
    rw [Finset.sum_range_succ, ← chain2_apply c g g' n (Nat.lt_of_succ_lt h)]
    unfold prodSum
    rw [dif_pos h]
    exact pay5_apply (xblk V c ⟨n + 1, h⟩) (chain2 V c n (Nat.lt_of_succ_lt h)) g g'

/-! ## The write-back: only the last point writes the accumulators to their arrays, and its block is the whole array -/

private theorem lt31 : 31 < cfg0.N := Nat.lt_of_lt_of_eq (by decide : 31 < 32) N_0.symm
private abbrev t31 : Fin cfg0.N := ⟨31, lt31⟩

/-- The accumulators after the last point, as contents of the two result arrays. -/
private abbrev res1 (c : Dev nD) : Buf (Elt Ideal) ((c : Thread nD τ).loc main_v0_0) := chain1 V c 31 lt31
private abbrev res2 (c : Dev nD) : Buf (Elt Ideal) ((c : Thread nD τ).loc main_v0_1) := chain2 V c 31 lt31

private theorem flushed_eq_1 (c : Dev nD) (t : Fin cfg0.N) (hf : (cfg0.win 1).flush t = true) :
    (dat0 V c).flushed 1 t = ((cfg0.win 1).blk t).view.read (Elt Ideal) (res1 V c) := by
  have hN : cfg0.N = 32 := N_0
  have h31 : t.val = 31 := by have := (flush0_1 t).mp hf; have := t.isLt; omega
  obtain rfl : t = t31 := Fin.ext h31
  show (cfg0.win 1).cut (grid0.coords t31) ((dat0 V c).after 1 t31) = _
  rw [after0_1, outsAt_eq]
  have hz' : (fun a => win0_1.index t31 a * main_v0_0.ty.shape.size a) = fun _ => 0 :=
    funext fun a => by fin_cases a <;> decide
  exact (Memref.read_access_unit_zero (Elt Ideal) main_v0_0 hz' (fun a => by rw [congrFun hz' a]; simp) (res1 V c)).symm

private theorem flushed_eq_2 (c : Dev nD) (t : Fin cfg0.N) (hf : (cfg0.win 2).flush t = true) :
    (dat0 V c).flushed 2 t = ((cfg0.win 2).blk t).view.read (Elt Ideal) (res2 V c) := by
  have hN : cfg0.N = 32 := N_0
  have h31 : t.val = 31 := by have := (flush0_2 t).mp hf; have := t.isLt; omega
  obtain rfl : t = t31 := Fin.ext h31
  show (cfg0.win 2).cut (grid0.coords t31) ((dat0 V c).after 2 t31) = _
  rw [after0_2, outsAt_eq]
  have hz' : (fun a => win0_2.index t31 a * main_v0_1.ty.shape.size a) = fun _ => 0 :=
    funext fun a => by fin_cases a <;> decide
  exact (Memref.read_access_unit_zero (Elt Ideal) main_v0_1 hz' (fun a => by rw [congrFun hz' a]; simp) (res2 V c)).symm

/-- The [32, 1] result array ends holding the column accumulator after the last point. -/
private theorem final_1 (c : Dev nD) : (dat0 V c).arrAt 1 cfg0.N = res1 V c :=
  (dat0 V c).arrAt_eq_of_cover 1 (res1 V c) (flushed_eq_1 V c) fun i =>
    ⟨t31, (flush0_1 t31).mpr rfl, by
      show i ∈ ((View.whole main_v0_0).slice (win0_1.rect t31)).set
      rw [View.set_slice_whole, Rect.mem_set_unit]
      intro a
      have h0 : (i 0 : Nat) < 32 := (i 0).isLt
      have h1 : (i 1 : Nat) < 1 := (i 1).isLt
      match a with
      | ⟨0, _⟩ =>
        show win0_1.index t31 0 * win0_1.size 0 ≤ (i 0 : Nat)
          ∧ (i 0 : Nat) < win0_1.index t31 0 * win0_1.size 0 + win0_1.xsize (grid0.coords t31) 0
        rw [show win0_1.index t31 0 * win0_1.size 0 = 0 from by decide +kernel,
          show win0_1.xsize (grid0.coords t31) 0 = 32 from by decide +kernel]
        omega
      | ⟨1, _⟩ =>
        show win0_1.index t31 1 * win0_1.size 1 ≤ (i 1 : Nat)
          ∧ (i 1 : Nat) < win0_1.index t31 1 * win0_1.size 1 + win0_1.xsize (grid0.coords t31) 1
        rw [show win0_1.index t31 1 * win0_1.size 1 = 0 from by decide +kernel,
          show win0_1.xsize (grid0.coords t31) 1 = 1 from by decide +kernel]
        omega⟩

/-- The [32, 32] result array ends holding the matrix accumulator after the last point. -/
private theorem final_2 (c : Dev nD) : (dat0 V c).arrAt 2 cfg0.N = res2 V c :=
  (dat0 V c).arrAt_eq_of_cover 2 (res2 V c) (flushed_eq_2 V c) fun i =>
    ⟨t31, (flush0_2 t31).mpr rfl, by
      show i ∈ ((View.whole main_v0_1).slice (win0_2.rect t31)).set
      rw [View.set_slice_whole, Rect.mem_set_unit]
      intro a
      have h0 : (i 0 : Nat) < 32 := (i 0).isLt
      have h1 : (i 1 : Nat) < 32 := (i 1).isLt
      match a with
      | ⟨0, _⟩ =>
        show win0_2.index t31 0 * win0_2.size 0 ≤ (i 0 : Nat)
          ∧ (i 0 : Nat) < win0_2.index t31 0 * win0_2.size 0 + win0_2.xsize (grid0.coords t31) 0
        rw [show win0_2.index t31 0 * win0_2.size 0 = 0 from by decide +kernel,
          show win0_2.xsize (grid0.coords t31) 0 = 32 from by decide +kernel]
        omega
      | ⟨1, _⟩ =>
        show win0_2.index t31 1 * win0_2.size 1 ≤ (i 1 : Nat)
          ∧ (i 1 : Nat) < win0_2.index t31 1 * win0_2.size 1 + win0_2.xsize (grid0.coords t31) 1
        rw [show win0_2.index t31 1 * win0_2.size 1 = 0 from by decide +kernel,
          show win0_2.xsize (grid0.coords t31) 1 = 32 from by decide +kernel]
        omega⟩

/-! ## From blocks to sample positions -/

private theorem pt_lt (t : Fin 32) : t.val < cfg0.N := Nat.lt_of_lt_of_eq t.isLt N_0.symm

/-- The input's block at a point of the 4 x 8 grid, the point given as a number below 32. -/
private abbrev blkAt (c : Dev nD) (t : Fin 32) : Vec Ideal S16x32x56x56 .f32 := xblk V c ⟨t.val, pt_lt t⟩

/-- Row g of the recast block at the point and position of sample (n, j, h, w) is group g's sample there: the block's
    batch tile is n / 16 and its channel block is j, so its entry (n % 16, g, h, w) is x (n, 32 j + g, h, w). -/
private theorem entry_eq (c : Dev nD) (g : Fin 32) (n : Fin 64) (j : Fin 8) (h w : Fin 56) :
    k0_pay3 (F := Ideal) (blkAt V c (Spec.pt n j)) (ix2 g (Spec.pk n h w)) = Spec.xg (xarr V c) g n j h w := by
  have hn := n.isLt
  have hj := j.isLt
  refine (pay3_apply (blkAt V c (Spec.pt n j)) g ⟨n.val % 16, Nat.mod_lt _ (by decide)⟩ h w (Spec.pk n h w) rfl).trans ?_
  exact xblk_apply V c ⟨(Spec.pt n j).val, pt_lt (Spec.pt n j)⟩ ⟨n.val % 16, Nat.mod_lt _ (by decide)⟩ g h w n (Spec.chan j g)
    (by show n.val = (n.val / 16 * 8 + j.val) / 8 * 16 + n.val % 16; omega)
    (by show j.val * 32 + g.val = (n.val / 16 * 8 + j.val) % 8 * 32 + g.val; omega)

/-- The [32, 1] output of the statistics pass ends at the per-group sums of the pass's input array. -/
theorem stats_sum (c : Dev nD) :
    ((dat0 (F := Ideal) V c).arrAt 1 cfg0.N : Spec.SC.Idx → EReal) = Spec.sumCol (V c main_arg0) := by
  rw [final_1 V c]
  funext i
  obtain ⟨g, u, rfl⟩ : ∃ (g : Fin 32) (u : Fin 1), i = ix2 g u := ⟨i 0, i 1, eq_ix2 i⟩
  obtain rfl : u = 0 := Subsingleton.elim _ _
  show chain1 V c 31 lt31 (ix2 g (0 : Fin 1)) = Spec.tot (Spec.xg (xarr V c) g)
  rw [chain1_apply V c g 31 lt31, Finset.sum_range]
  have e : ∀ t : Fin 32, rowSum V c g t.val = ∑ k : Fin 50176, k0_pay3 (F := Ideal) (blkAt V c t) (ix2 g k) :=
    fun t => dif_pos (pt_lt t)
  rw [Finset.sum_congr rfl fun t _ => e t,
    Spec.sum_blocks fun (t : Fin 32) (k : Fin 50176) => k0_pay3 (F := Ideal) (blkAt V c t) (ix2 g k)]
  exact congrArg Spec.tot (funext fun n => funext fun j => funext fun h => funext fun w => entry_eq V c g n j h w)

/-- The [32, 32] output of the statistics pass ends at the sums of products of two groups' samples. -/
theorem stats_gram (c : Dev nD) :
    ((dat0 (F := Ideal) V c).arrAt 2 cfg0.N : Spec.SM.Idx → EReal) = Spec.gramM (V c main_arg0) := by
  rw [final_2 V c]
  funext i
  obtain ⟨g, g', rfl⟩ : ∃ (g g' : Fin 32), i = ix2 g g' := ⟨i 0, i 1, eq_ix2 i⟩
  show chain2 V c 31 lt31 (ix2 g g')
    = Spec.tot fun n j h w => Spec.xg (xarr V c) g n j h w * Spec.xg (xarr V c) g' n j h w
  rw [chain2_apply V c g g' 31 lt31, Finset.sum_range]
  have e : ∀ t : Fin 32, prodSum V c g g' t.val
      = ∑ k : Fin 50176, k0_pay3 (F := Ideal) (blkAt V c t) (ix2 g k) * k0_pay3 (F := Ideal) (blkAt V c t) (ix2 g' k) :=
    fun t => dif_pos (pt_lt t)
  rw [Finset.sum_congr rfl fun t _ => e t,
    Spec.sum_blocks fun (t : Fin 32) (k : Fin 50176) =>
      k0_pay3 (F := Ideal) (blkAt V c t) (ix2 g k) * k0_pay3 (F := Ideal) (blkAt V c t) (ix2 g' k)]
  refine congrArg Spec.tot (funext fun n => funext fun j => funext fun h => funext fun w => ?_)
  rw [entry_eq V c g n j h w, entry_eq V c g' n j h w]

end Cert.KernelIdeal.KStats

end
-- ==== Proof.LibHostRead.lean ====
/-
  General lemmas for reading a host program's operations at an index, at the ideal instance.

  * `hostDotGeneral_plain_apply`: the host's product of an [M, K] operand with a [K, N] operand, read at (p, j), is the
    sum over k of lhs (p, k) · rhs (k, j), for any record of dimension numbers whose four axis facts are given (the
    host's product is the kernel's product into a zero accumulator).
  * `hostReduceAdd_rows_apply`: the host's sum of an [R, K] array along its last axis, read at row r, is the initial
    value plus the sum over k of the array at (r, k).
  * `broadcastInDim_vec_row_apply`: a vector of n entries laid out as the one row of a [1, n] array reads, at (u, k),
    the vector at k.
  * `broadcastInDim_vec_col_apply`: a vector of n entries laid out as the one column of an [n, 1] array reads, at
    (r, u), the vector at r.
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«173520_j44676249813412_1_alg».proof.Proof.LibPlainDot

noncomputable section

namespace Cert.LibHostRead

open Idealize.ShloMosaic Idealize.ShloMosaic.ValueIdx

/-- The host's plain two-operand matrix product read at (p, j): ∑ₖ lhs (p, k) · rhs (k, j). -/
theorem hostDotGeneral_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  rw [← matmul_zero_eq_dotGeneral]
  exact Cert.Lib.matmul_plain_apply d hr hs hl0 hl1 hr0 hr1 prec lhs rhs p j

/-- The host's row-wise sum of an [R, K] array read at row r: the initial value plus ∑ₖ x (r, k). -/
theorem hostReduceAdd_rows_apply {R K : ℕ} {φ : FTy} (x : FVec Ideal ⟨2, ![R, K]⟩ φ) (init : (⟨0, ![]⟩ : Shape).Idx → Ideal φ)
    (h' : (⟨2, ![R, K]⟩ : Shape).ReducesTo [1] ⟨1, ![R]⟩) (hu : 0 < (⟨0, ![]⟩ : Shape).numel)
    (h : (⟨2, ![R, K]⟩ : Shape).Reduces [1] ⟨1, ![R]⟩) (r : Fin R) :
    Host.reduceAdd x init h' hu (ix1 r) = init ix0 + ∑ k : Fin K, x (ix2 r k) := by
  rw [hostReduceAdd_apply]
  refine (Ideal.hostReduceAdd_single h' h x _ (ix1 r)).trans ?_
  refine congr (congrArg (· + ·) (congrArg init (eq_ix0 _))) (Finset.sum_congr rfl fun k _ => ?_)
  exact congrArg x (funext fun a => Fin.ext (by match a with | ⟨0, _⟩ => rfl | ⟨1, _⟩ => rfl))

variable {α : Type}

/-- A vector laid out as the one row of a [1, n] array reads, at (u, k), the vector at k. -/
theorem broadcastInDim_vec_row_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun a => ?_
  match a with
  | ⟨0, _⟩ =>
    show k.val = if n = 1 then 0 else k.val
    split
    · have := k.isLt; omega
    · rfl

/-- A vector laid out as the one column of an [n, 1] array reads, at (r, u), the vector at r. -/
theorem broadcastInDim_vec_col_apply {n : ℕ} (h : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] h v (ix2 r u) = v (ix1 r) := by
  refine broadcastInDim_apply ![0] h v (ix2 r u) (ix1 r) fun a => ?_
  match a with
  | ⟨0, _⟩ =>
    show r.val = if n = 1 then 0 else r.val
    split
    · have := r.isLt; omega
    · rfl

end Cert.LibHostRead

end
-- ==== Proof.KHost.lean ====
/-
  The host operations between the two passes read as values: what the whitening pass is entered with, as functions
  of what the statistics pass left and of the launch arrays.
-/
import proofs.«173520_j44676249813412_1_alg».proof.Proof.Gen.KernelIdeal.Frame
import proofs.«173520_j44676249813412_1_alg».proof.Proof.Spec
import proofs.«173520_j44676249813412_1_alg».proof.Proof.LibHostRead
import Idealize.ShloMosaic.Lib.Pipeline.Value
import Idealize.ShloMosaic.Lib.StableHlo.Run

noncomputable section

namespace Cert.KernelIdeal.KHost

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- What the statistics pass left: its [32, 1] and [32, 32] outputs. -/
abbrev sums (c : Dev nD) : Spec.SC.Idx → EReal := (dat0 (F := Ideal) (V0 m ρ) c).arrAt 1 cfg0.N
abbrev grams (c : Dev nD) : Spec.SM.Idx → EReal := (dat0 (F := Ideal) (V0 m ρ) c).arrAt 2 cfg0.N

/-- A buffer that no operation of a stretch writes holds after the stretch what it held before. -/
local macro "unwritten " l:ident : tactic =>
  `(tactic| exact StableHlo.after_of_forall_not_mem _ _ (List.forall_iff_forall_mem.mp (by
      simp only [$l:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The input array is what was launched, at the statistics pass's entry and at the whitening pass's. -/
theorem entry_arg0 (c : Dev nD) : V0 m ρ c main_arg0 = m ((c : Thread nD τ).loc main_arg0) := rfl
theorem host_arg0 (c : Dev nD) : V4 m ρ c main_arg0 = m ((c : Thread nD τ).loc main_arg0) :=
  calc W4 m ρ c (Proc.devRef .tc main_arg0)
    _ = W3 m ρ c (Proc.devRef .tc main_arg0) := by unwritten hostOps1_2
    _ = W2 m ρ c (Proc.devRef .tc main_arg0) := by unwritten hostOps1_1
    _ = W1 m ρ c (Proc.devRef .tc main_arg0) := by unwritten hostOps1
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-! ## The first stretch: means and covariance -/

/-- The statistics pass's two outputs, as the first stretch finds them. -/
private theorem W1_sums (c : Dev nD) : (W1 m ρ c (Proc.devRef .tc main_v0_0) : Spec.SC.Idx → EReal) = sums m ρ c := W1_arr m ρ c 1
private theorem W1_grams (c : Dev nD) : (W1 m ρ c (Proc.devRef .tc main_v0_1) : Spec.SM.Idx → EReal) = grams m ρ c := W1_arr m ρ c 2

/-- The quotient by the broadcast count word, entry by entry, is the mean. -/
private theorem div_cnt_col (s : Spec.SC.Idx → EReal) :
    (Host.divf (F := Ideal) (s : FVec Ideal S32x1 .f32) (broadcastInDim S32x1 ![] bcast_S_S32x1 (constant (F := Ideal) S_ .f32 0x49C40000#32)) : Spec.SC.Idx → EReal)
      = Spec.muFrom s := by
  funext i
  rfl

/-- The means after the first stretch. -/
private theorem W2_mu (c : Dev nD) : (W2 m ρ c (Proc.devRef .tc main_v2) : Spec.SC.Idx → EReal) = Spec.muFrom (sums m ρ c) := by
  show StableHlo.after hostOps1 (W1 m ρ c) (Proc.devRef .tc main_v2) = _
  generalize hV : W1 m ρ c = V
  have h1 : (V (Proc.devRef .tc main_v0_0) : Spec.SC.Idx → EReal) = sums m ρ c := by rw [← hV]; exact W1_sums m ρ c
  after_results
  rw [← h1]
  exact div_cnt_col _

/-- The means the whitening pass reads: the sums over the count. -/
theorem host_mu (c : Dev nD) : (V4 m ρ c main_v2 : Spec.SC.Idx → EReal) = Spec.muFrom (sums m ρ c) :=
  calc W4 m ρ c (Proc.devRef .tc main_v2)
    _ = W3 m ρ c (Proc.devRef .tc main_v2) := by unwritten hostOps1_2
    _ = W2 m ρ c (Proc.devRef .tc main_v2) := by unwritten hostOps1_1
    _ = Spec.muFrom (sums m ρ c) := W2_mu m ρ c

/-- The mean column, typed as the host's vector. -/
private abbrev muV (s : FVec Ideal S32x1 .f32) : FVec Ideal S32x1 .f32 := Spec.muFrom s

/-- The covariance as the first stretch's operations spell it, over the two outputs as variables: the second
    moments over the count, minus the outer product of the means (a product over one contracted position), plus
    the ridge. -/
private theorem sigma_read (s : FVec Ideal S32x1 .f32) (G E : FVec Ideal S32x32 .f32) :
    addf (F := Ideal)
        (subf (F := Ideal)
          (Host.divf (F := Ideal) G (broadcastInDim S32x32 ![] bcast_S_S32x32 (constant (F := Ideal) S_ .f32 0x49C40000#32)))
          (Host.dotGeneral (F := Ideal) (φ₁ := .f32) (φ₂ := .f32) dot_S32x1_S1x32_S32x32_1_0_0_1_n_n none
            (muV s) (transpose S1x32 [1, 0] (muV s) transposes_S32x1_S1x32_1_0)))
        E
      = Spec.sigmaFrom E s G := by
  funext i
  obtain ⟨p, q, rfl⟩ : ∃ p q, i = ix2 p q := ⟨i 0, i 1, eq_ix2 i⟩
  show (Ideal.div (G (ix2 p q)) Spec.cnt - Host.dotGeneral (F := Ideal) (φ₁ := .f32) (φ₂ := .f32) dot_S32x1_S1x32_S32x32_1_0_0_1_n_n none
      (muV s) (transpose S1x32 [1, 0] (muV s) transposes_S32x1_S1x32_1_0) (ix2 p q)) + E (ix2 p q)
    = (Ideal.div (G (ix2 p q)) Spec.cnt - Spec.muFrom s (ix2 p 0) * Spec.muFrom s (ix2 q 0)) + E (ix2 p q)
  rw [Cert.LibHostRead.hostDotGeneral_plain_apply dot_S32x1_S1x32_S32x32_1_0_0_1_n_n rfl rfl
        (fun _ _ => rfl) (fun _ _ => rfl) (fun _ _ => rfl) (fun _ _ => rfl) none _ _ p q,
      Fin.sum_univ_one, transpose_ix2_apply]

/-- The covariance after the first stretch. -/
private theorem W2_sigma (c : Dev nD) :
    (W2 m ρ c (Proc.devRef .tc main_v16) : Spec.SM.Idx → EReal)
      = Spec.sigmaFrom (Spec.epsEye bcast_S_S32x32) (sums m ρ c) (grams m ρ c) := by
  show StableHlo.after hostOps1 (W1 m ρ c) (Proc.devRef .tc main_v16) = _
  generalize hV : W1 m ρ c = V
  have h1 : (V (Proc.devRef .tc main_v0_0) : Spec.SC.Idx → EReal) = sums m ρ c := by rw [← hV]; exact W1_sums m ρ c
  have h2 : (V (Proc.devRef .tc main_v0_1) : Spec.SM.Idx → EReal) = grams m ρ c := by rw [← hV]; exact W1_grams m ρ c
  after_results
  rw [← h1, ← h2]
  exact sigma_read _ _ (Spec.epsEye bcast_S_S32x32)

/-! ## The second and third stretches: the trace, the normalisation, the five steps -/

/-- The trace stretch computes the trace of whatever the covariance buffer holds. -/
private theorem trace_read (V : Valuation τ sig (Elt Ideal)) :
    (StableHlo.after hostOps1_1 V (Proc.devRef .tc main_v17) : Spec.S0.Idx → EReal)
      = Spec.trace bcast_S_S32x32 reducesTo_S32x32_S_d0_1 h_S_ (V (Proc.devRef .tc main_v16)) := by
  after_results
  rfl

/-- The chain from the covariance to the whitening matrix, with the trace a variable: what the third stretch
    computes from the covariance buffer and the trace buffer. -/
private def nsT (σ : FVec Ideal Spec.SM .f32) (t : FVec Ideal Spec.S0 .f32) : FVec Ideal Spec.SM .f32 :=
  let ti : FVec Ideal Spec.S0 .f32 := Host.divf (F := Ideal) (constant (F := Ideal) Spec.S0 .f32 0x3F800000#32) t
  let sn : FVec Ideal Spec.SM .f32 := mulf (F := Ideal) σ (broadcastInDim Spec.SM ![] bcast_S_S32x32 ti)
  mulf (F := Ideal)
    (Spec.nsStep dot_S32x32_S32x32_S32x32_1_0_0_1_n_n bcast_S_S32x32
      (Spec.nsStep dot_S32x32_S32x32_S32x32_1_0_0_1_n_n bcast_S_S32x32
        (Spec.nsStep dot_S32x32_S32x32_S32x32_1_0_0_1_n_n bcast_S_S32x32
          (Spec.nsStep dot_S32x32_S32x32_S32x32_1_0_0_1_n_n bcast_S_S32x32
            (Spec.nsStep dot_S32x32_S32x32_S32x32_1_0_0_1_n_n bcast_S_S32x32 (Spec.eye bcast_S_S32x32) sn) sn) sn) sn) sn)
    (broadcastInDim Spec.SM ![] bcast_S_S32x32 (Host.sqrt (F := Ideal) ti))

/-- With the trace of the covariance itself, that is the shared chain. -/
private theorem nsT_trace (σ : FVec Ideal Spec.SM .f32) :
    nsT σ (Spec.trace bcast_S_S32x32 reducesTo_S32x32_S_d0_1 h_S_ σ)
      = Spec.ns dot_S32x32_S32x32_S32x32_1_0_0_1_n_n bcast_S_S32x32 reducesTo_S32x32_S_d0_1 h_S_ σ := rfl

/-- The third stretch computes that chain of the covariance buffer and the trace buffer. -/
private theorem ns_read (V : Valuation τ sig (Elt Ideal)) :
    (StableHlo.after hostOps1_2 V (Proc.devRef .tc main_v69) : Spec.SM.Idx → EReal)
      = nsT (V (Proc.devRef .tc main_v16)) (V (Proc.devRef .tc main_v17)) := by
  after_results_simp
  rfl

/-- The whitening matrix it reads: the shared chain applied to the covariance built from the sums and the products. -/
theorem host_wm (c : Dev nD) :
    (V4 m ρ c main_v69 : Spec.SM.Idx → EReal)
      = Spec.ns dot_S32x32_S32x32_S32x32_1_0_0_1_n_n bcast_S_S32x32 reducesTo_S32x32_S_d0_1 h_S_
          (Spec.sigmaFrom (Spec.epsEye bcast_S_S32x32) (sums m ρ c) (grams m ρ c)) := by
  have h16 : W3 m ρ c (Proc.devRef .tc main_v16) = W2 m ρ c (Proc.devRef .tc main_v16) := by unwritten hostOps1_1
  have h17 : (W3 m ρ c (Proc.devRef .tc main_v17) : Spec.S0.Idx → EReal)
      = Spec.trace bcast_S_S32x32 reducesTo_S32x32_S_d0_1 h_S_ (W2 m ρ c (Proc.devRef .tc main_v16)) := trace_read (W2 m ρ c)
  refine (ns_read (W3 m ρ c)).trans ?_
  rw [h16, h17, nsT_trace, W2_sigma]

/-! ## The scale and the shift, re-laid -/

/-- A [1, 256, 1, 1] array flattened and cut into eight rows of thirty-two reads, at (j, 0, g), channel 32 j + g. -/
private theorem relay_read (a : S1x256x1x1.Idx → EReal) (j : Fin 8) (g : Fin 32) :
    shapeCast S8x1x32 (shapeCast S256 a shapeCasts_S1x256x1x1_S256) shapeCasts_S256_S8x1x32 (ix3 j (0 : Fin 1) g)
      = a (ix4 (0 : Fin 1) (Spec.chan j g) (0 : Fin 1) (0 : Fin 1)) := by
  refine (shapeCast_apply _ shapeCasts_S256_S8x1x32 (ix3 j (0 : Fin 1) g) (ix1 (Spec.chan j g)) ?_).trans
    (shapeCast_apply a shapeCasts_S1x256x1x1_S256 (ix1 (Spec.chan j g)) (ix4 (0 : Fin 1) (Spec.chan j g) (0 : Fin 1) (0 : Fin 1)) ?_)
  · rw [Shape.rowMajor_val_one, Shape.rowMajor_val_three]
    show j.val * 32 + g.val = (j.val * 1 + 0) * 32 + g.val
    omega
  · rw [Shape.rowMajor_val_four, Shape.rowMajor_val_one]
    show ((0 * 256 + (j.val * 32 + g.val)) * 1 + 0) * 1 + 0 = j.val * 32 + g.val
    omega

/-- The third stretch re-lays whatever the two launch buffers hold. -/
private theorem w_read (V : Valuation τ sig (Elt Ideal)) :
    (StableHlo.after hostOps1_2 V (Proc.devRef .tc main_v72) : S8x1x32.Idx → EReal)
      = shapeCast S8x1x32 (shapeCast S256 (V (Proc.devRef .tc main_arg1) : S1x256x1x1.Idx → EReal) shapeCasts_S1x256x1x1_S256) shapeCasts_S256_S8x1x32 := by
  after_results
  rfl
private theorem b_read (V : Valuation τ sig (Elt Ideal)) :
    (StableHlo.after hostOps1_2 V (Proc.devRef .tc main_v73) : S8x1x32.Idx → EReal)
      = shapeCast S8x1x32 (shapeCast S256 (V (Proc.devRef .tc main_arg2) : S1x256x1x1.Idx → EReal) shapeCasts_S1x256x1x1_S256) shapeCasts_S256_S8x1x32 := by
  after_results
  rfl

/-- The two launch buffers are untouched up to the third stretch. -/
private theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by unwritten hostOps1_1
    _ = W1 m ρ c (Proc.devRef .tc main_arg1) := by unwritten hostOps1
    _ = W0 m ρ c (Proc.devRef .tc main_arg1) := W1_of_ne m ρ c main_arg1 (by decide)
    _ = m ((c : Thread nD τ).loc main_arg1) := rfl
private theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps1_1
    _ = W1 m ρ c (Proc.devRef .tc main_arg2) := by unwritten hostOps1
    _ = W0 m ρ c (Proc.devRef .tc main_arg2) := W1_of_ne m ρ c main_arg2 (by decide)
    _ = m ((c : Thread nD τ).loc main_arg2) := rfl

/-- The scale and shift it reads, re-laid as [8, 1, 32]: entry (j, 0, g) is channel 32 j + g of the launch array. -/
theorem host_w (c : Dev nD) (j : Fin 8) (g : Fin 32) :
    (V4 m ρ c main_v72 : S8x1x32.Idx → EReal) (ix3 j (0 : Fin 1) g)
      = (m ((c : Thread nD τ).loc main_arg1) : S1x256x1x1.Idx → EReal) (ix4 (0 : Fin 1) (Spec.chan j g) (0 : Fin 1) (0 : Fin 1)) := by
  refine (congrFun (w_read (W3 m ρ c)) (ix3 j (0 : Fin 1) g)).trans ?_
  rw [W3_arg1]
  exact relay_read _ j g
theorem host_b (c : Dev nD) (j : Fin 8) (g : Fin 32) :
    (V4 m ρ c main_v73 : S8x1x32.Idx → EReal) (ix3 j (0 : Fin 1) g)
      = (m ((c : Thread nD τ).loc main_arg2) : S1x256x1x1.Idx → EReal) (ix4 (0 : Fin 1) (Spec.chan j g) (0 : Fin 1) (0 : Fin 1)) := by
  refine (congrFun (b_read (W3 m ρ c)) (ix3 j (0 : Fin 1) g)).trans ?_
  rw [W3_arg2]
  exact relay_read _ j g

end Cert.KernelIdeal.KHost

end
-- ==== Proof.KApply.lean ====
/-
  The whitening pass read as values: its output array ends, at (n, c, h, w), at row (c mod 32) of the whitening matrix
  against the centred samples of channel block (c / 32) at (n, h, w), times the channel's scale plus its shift.
-/
import proofs.«173520_j44676249813412_1_alg».proof.Proof.Gen.KernelIdeal.Frame
import proofs.«173520_j44676249813412_1_alg».proof.Proof.Spec
import proofs.«173520_j44676249813412_1_alg».proof.Proof.LibPlainDot
import Idealize.ShloMosaic.Lib.Pipeline.Value

noncomputable section

namespace Cert.KernelIdeal.KApply

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The product's dimension numbers, axis by axis -/

private abbrev DW := dot_S32x32_S32x25088_S32x25088_1_0_0_1_n_n

private theorem dw_rank : DW.contr.rank = 1 := by decide
private theorem dw_size : DW.contr.size ⟨0, by decide⟩ = 32 := by decide

private theorem dw_lhs_0 (j : S32x25088.Idx) (k : DW.contr.Idx) : (DW.lhsIdx j k 0).val = (j 0).val := by
  simp [DotDims.lhsIdx, DW, dot_S32x32_S32x25088_S32x25088_1_0_0_1_n_n]; rfl
private theorem dw_lhs_1 (j : S32x25088.Idx) (k : DW.contr.Idx) : (DW.lhsIdx j k 1).val = (k ⟨0, by decide⟩).val := by
  simp [DotDims.lhsIdx, DW, dot_S32x32_S32x25088_S32x25088_1_0_0_1_n_n]; rfl
private theorem dw_rhs_0 (j : S32x25088.Idx) (k : DW.contr.Idx) : (DW.rhsIdx j k 0).val = (k ⟨0, by decide⟩).val := by
  simp [DotDims.rhsIdx, DW, dot_S32x32_S32x25088_S32x25088_1_0_0_1_n_n]; rfl
private theorem dw_rhs_1 (j : S32x25088.Idx) (k : DW.contr.Idx) : (DW.rhsIdx j k 1).val = (j 1).val := by
  simp [DotDims.rhsIdx, DW, dot_S32x32_S32x25088_S32x25088_1_0_0_1_n_n]; rfl

/-- The product into zero, at (g, col). -/
private theorem mm_apply (a : FVec Ideal S32x32 .f32) (b : FVec Ideal S32x25088 .f32) (g : Fin 32) (col : Fin 25088) :
    matmul DW none a b (constant S32x25088 .f32 0x00000000#32) (ix2 g col) = ∑ k : Fin 32, a (ix2 g k) * b (ix2 k col) :=
  Cert.Lib.matmul_plain_apply DW dw_rank dw_size dw_lhs_0 dw_lhs_1 dw_rhs_0 dw_rhs_1 none a b g col

/-! ## The layout operations of the body, at explicit coordinates -/

/-- Column (n', h, w) of the [32, 25088] view of a block is its sample (n', ., h, w): the channel axis moved in front,
    the other three flattened row-major. -/
private theorem flat_in (x : FVec Ideal S8x32x56x56 .f32) (ht : S8x32x56x56.Transposes [1, 0, 2, 3] S32x8x56x56)
    (hc : S32x8x56x56.ShapeCasts S32x25088) (k : Fin 32) (n' : Fin 8) (h w : Fin 56) (col : Fin 25088)
    (hcol : col.val = (n'.val * 56 + h.val) * 56 + w.val) :
    shapeCast S32x25088 (transpose S32x8x56x56 [1, 0, 2, 3] x ht) hc (ix2 k col) = x (ix4 n' k h w) := by
  refine (shapeCast_apply _ hc (ix2 k col) (ix4 k n' h w) ?_).trans ?_
  · rw [Shape.rowMajor_val_four, Shape.rowMajor_val_two]
    show ((k.val * 8 + n'.val) * 56 + h.val) * 56 + w.val = k.val * 25088 + col.val
    omega
  · refine transpose_apply [1, 0, 2, 3] x ht (ix4 k n' h w) (ix4 n' k h w) fun b => ?_
    match b with
    | ⟨0, _⟩ => rfl
    | ⟨1, _⟩ => rfl
    | ⟨2, _⟩ => rfl
    | ⟨3, _⟩ => rfl

/-- And back: entry (n', g, h, w) of the block made from a [32, 25088] array is its entry (g, column (n', h, w)). -/
private theorem flat_out (y : FVec Ideal S32x25088 .f32) (hc : S32x25088.ShapeCasts S32x8x56x56)
    (ht : S32x8x56x56.Transposes [1, 0, 2, 3] S8x32x56x56) (g : Fin 32) (n' : Fin 8) (h w : Fin 56) (col : Fin 25088)
    (hcol : col.val = (n'.val * 56 + h.val) * 56 + w.val) :
    transpose S8x32x56x56 [1, 0, 2, 3] (shapeCast S32x8x56x56 y hc) ht (ix4 n' g h w) = y (ix2 g col) := by
  refine (transpose_apply [1, 0, 2, 3] _ ht (ix4 n' g h w) (ix4 g n' h w) fun b => ?_).trans ?_
  · match b with
    | ⟨0, _⟩ => rfl
    | ⟨1, _⟩ => rfl
    | ⟨2, _⟩ => rfl
    | ⟨3, _⟩ => rfl
  · refine shapeCast_apply y hc (ix4 g n' h w) (ix2 g col) ?_
    rw [Shape.rowMajor_val_four, Shape.rowMajor_val_two]
    show g.val * 25088 + col.val = ((g.val * 8 + n'.val) * 56 + h.val) * 56 + w.val
    omega

/-- A [1, 1, 32] row recast to [1, 32, 1, 1] and broadcast over the block reads, at (n', g, h, w), its entry g. -/
private theorem chan_bcast (v : FVec Ideal S1x1x32 .f32) (hc : S1x1x32.ShapeCasts S1x32x1x1)
    (hb : S1x32x1x1.Broadcasts S8x32x56x56) (g : Fin 32) (n' : Fin 8) (h w : Fin 56) :
    broadcastTo S8x32x56x56 (shapeCast S1x32x1x1 v hc) hb (ix4 n' g h w) = v (ix3 (0 : Fin 1) (0 : Fin 1) g) := by
  refine (broadcastTo_apply _ hb (ix4 n' g h w) (ix4 (0 : Fin 1) g (0 : Fin 1) (0 : Fin 1)) fun a => ?_).trans ?_
  · match a with
    | ⟨0, _⟩ => rfl
    | ⟨1, _⟩ => rfl
    | ⟨2, _⟩ => rfl
    | ⟨3, _⟩ => rfl
  · refine shapeCast_apply v hc _ (ix3 (0 : Fin 1) (0 : Fin 1) g) ?_
    rw [Shape.rowMajor_val_four, Shape.rowMajor_val_three]
    show ((0 * 1 + 0) * 32 + g.val) = ((0 * 32 + g.val) * 1 + 0) * 1 + 0
    omega

/-! ## The body's stored value at an index -/

private theorem col_lt (n' : Fin 8) (h w : Fin 56) : (n'.val * 56 + h.val) * 56 + w.val < 25088 := by
  have := n'.isLt; have := h.isLt; have := w.isLt; omega

/-- The stored block at (n', g, h, w): row g of the matrix against the centred column (n', h, w) of the block, times the
    scale's entry g plus the shift's entry g. -/
private theorem pay_apply (x0 : FVec Ideal S8x32x56x56 .f32) (x1 : FVec Ideal S32x1 .f32) (x2 : FVec Ideal S32x32 .f32)
    (x3 x4 : FVec Ideal S1x1x32 .f32) (n' : Fin 8) (g : Fin 32) (h w : Fin 56) :
    k1_pay1 (F := Ideal) x0 x1 x2 x3 x4 (ix4 n' g h w)
      = (∑ k : Fin 32, x2 (ix2 g k) * (x0 (ix4 n' k h w) - x1 (ix2 k (0 : Fin 1))))
          * x3 (ix3 (0 : Fin 1) (0 : Fin 1) g) + x4 (ix3 (0 : Fin 1) (0 : Fin 1) g) := by
  unfold k1_pay1
  refine (addf_apply _ _ _).trans (congrArg₂ (· + ·) ((mulf_apply _ _ _).trans (congrArg₂ (· * ·) ?_ ?_)) ?_)
  · refine (flat_out _ _ _ g n' h w ⟨_, col_lt n' h w⟩ rfl).trans ?_
    refine (mm_apply _ _ g _).trans (Finset.sum_congr rfl fun k _ => ?_)
    refine congrArg₂ (· * ·) ?_ ((subf_apply _ _ _).trans (congrArg₂ (· - ·) ?_ ?_))
    · exact congrFun (shapeCast_self x2 _) (ix2 g k)
    · exact flat_in x0 _ _ k n' h w ⟨_, col_lt n' h w⟩ rfl
    · refine (Cert.Lib.broadcastTo_a1_ab_apply _ _ k _).trans ?_
      exact congrFun (shapeCast_self x1 _) (ix2 k (0 : Fin 1))
  · refine (chan_bcast _ _ _ g n' h w).trans ?_
    exact congrFun (shapeCast_self x3 _) _
  · refine (chan_bcast _ _ _ g n' h w).trans ?_
    exact congrFun (shapeCast_self x4 _) _

/-! ## The windows' block indices over the 8 x 8 grid -/

/-- Decided over the 64 points: the input block and the output block are the same block (batch tile, channel block) of
    their arrays; the means and the matrix are whole; the scale and the shift are at the output's channel block. -/
private theorem idx_facts : ∀ t : Fin cfg1.N,
    win1_0.index t (0 : Fin 4) = win1_5.index t (0 : Fin 4) ∧ win1_0.index t (1 : Fin 4) = win1_5.index t (1 : Fin 4)
    ∧ win1_0.index t (2 : Fin 4) = 0 ∧ win1_0.index t (3 : Fin 4) = 0
    ∧ win1_5.index t (2 : Fin 4) = 0 ∧ win1_5.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_5.index t (1 : Fin 4) ∧ win1_3.index t (1 : Fin 3) = 0 ∧ win1_3.index t (2 : Fin 3) = 0
    ∧ win1_4.index t (0 : Fin 3) = win1_5.index t (1 : Fin 4) ∧ win1_4.index t (1 : Fin 3) = 0 ∧ win1_4.index t (2 : Fin 3) = 0
    ∧ win1_5.index t (0 : Fin 4) ≤ 7 ∧ win1_5.index t (1 : Fin 4) ≤ 7 :=
  (by decide +kernel : ∀ t : Fin grid1.N, _)

/-- Every (batch tile, channel block) is some point's output block. -/
private theorem idx_onto : ∀ (q0 q1 : Fin 8), ∃ t : Fin cfg1.N, win1_5.index t = ![q0.val, q1.val, 0, 0] :=
  (by decide +kernel : ∀ (q0 q1 : Fin 8), ∃ t : Fin grid1.N, win1_5.index t = ![q0.val, q1.val, 0, 0])

/-! ## One point's stored block is the matching block of the closed form -/

/-- If the five loaded blocks are block (a, b) of the input, the whole means and matrix, and rows b of the scale and the
    shift, then the stored value at (n', g, h, w) is the closed form at (8 a + n', 32 b + g, h, w). -/
private theorem point_eq (X : Spec.SX.Idx → EReal) (MU : Spec.SC.Idx → EReal) (WM : Spec.SM.Idx → EReal) (SCL SHF : S8x1x32.Idx → EReal)
    (x0 : FVec Ideal S8x32x56x56 .f32) (x1 : FVec Ideal S32x1 .f32) (x2 : FVec Ideal S32x32 .f32) (x3 x4 : FVec Ideal S1x1x32 .f32)
    (a b : Fin 8)
    (h0 : ∀ (n' : Fin 8) (k : Fin 32) (h w : Fin 56) (N : Fin 64), N.val = a.val * 8 + n'.val →
      x0 (ix4 n' k h w) = X (ix4 N (Spec.chan b k) h w))
    (h1 : ∀ k : Fin 32, x1 (ix2 k (0 : Fin 1)) = MU (ix2 k (0 : Fin 1)))
    (h2 : ∀ g k : Fin 32, x2 (ix2 g k) = WM (ix2 g k))
    (h3 : ∀ g : Fin 32, x3 (ix3 (0 : Fin 1) (0 : Fin 1) g) = SCL (ix3 b (0 : Fin 1) g))
    (h4 : ∀ g : Fin 32, x4 (ix3 (0 : Fin 1) (0 : Fin 1) g) = SHF (ix3 b (0 : Fin 1) g))
    (n' : Fin 8) (g : Fin 32) (h w : Fin 56) (N : Fin 64) (C : Fin 256)
    (hN : N.val = a.val * 8 + n'.val) (hC : C.val = b.val * 32 + g.val) :
    k1_pay1 (F := Ideal) x0 x1 x2 x3 x4 (ix4 n' g h w)
      = Spec.applyAt WM MU X (fun ch => SCL (ix3 (Spec.blk ch) (0 : Fin 1) (Spec.grp ch)))
          (fun ch => SHF (ix3 (Spec.blk ch) (0 : Fin 1) (Spec.grp ch))) N C h w := by
  have hg : Spec.grp C = g := Fin.ext (by show C.val % 32 = g.val; have := g.isLt; omega)
  have hb : Spec.blk C = b := Fin.ext (by show C.val / 32 = b.val; have := g.isLt; omega)
  refine (pay_apply x0 x1 x2 x3 x4 n' g h w).trans ?_
  show _ = (∑ k : Fin 32, WM (ix2 (Spec.grp C) k) * (X (ix4 N (Spec.chan (Spec.blk C) k) h w) - MU (ix2 k (0 : Fin 1))))
      * SCL (ix3 (Spec.blk C) (0 : Fin 1) (Spec.grp C)) + SHF (ix3 (Spec.blk C) (0 : Fin 1) (Spec.grp C))
  rw [hg, hb]
  refine congrArg₂ (· + ·) (congrArg₂ (· * ·) (Finset.sum_congr rfl fun k _ => ?_) (h3 g)) (h4 g)
  rw [h2 g k, h0 n' k h w N hN, h1 k]

/-! ## The blocks at a grid point, read off the arrays the pass was entered with -/

/-- The input block at point t. -/
private abbrev xblk (c : Dev nD) (t : Fin cfg1.N) : FVec Ideal S8x32x56x56 .f32 := iblk1 V c 0 t
/-- The means as the point sees them. -/
private abbrev mublk (c : Dev nD) (t : Fin cfg1.N) : FVec Ideal S32x1 .f32 := iblk1 V c 1 t
/-- The whitening matrix as the point sees it. -/
private abbrev wmblk (c : Dev nD) (t : Fin cfg1.N) : FVec Ideal S32x32 .f32 := iblk1 V c 2 t
/-- The scale's row at point t. -/
private abbrev sclblk (c : Dev nD) (t : Fin cfg1.N) : FVec Ideal S1x1x32 .f32 := iblk1 V c 3 t
/-- The shift's row at point t. -/
private abbrev shfblk (c : Dev nD) (t : Fin cfg1.N) : FVec Ideal S1x1x32 .f32 := iblk1 V c 4 t

/-- The input block is block (a, b) of the input array. -/
private theorem xblk_apply (c : Dev nD) (t : Fin cfg1.N) (a b : Fin 8)
    (e0 : win1_0.index t (0 : Fin 4) = a.val) (e1 : win1_0.index t (1 : Fin 4) = b.val)
    (e2 : win1_0.index t (2 : Fin 4) = 0) (e3 : win1_0.index t (3 : Fin 4) = 0)
    (n' : Fin 8) (k : Fin 32) (h w : Fin 56) (N : Fin 64) (hN : N.val = a.val * 8 + n'.val) :
    xblk V c t (ix4 n' k h w) = (V c main_arg0 : Spec.SX.Idx → EReal) (ix4 N (Spec.chan b k) h w) := by
  show (V c main_arg0 : Spec.SX.Idx → EReal) (((cfg1.win 0).blk t).view.emb (ix4 n' k h w)) = _
  refine congrArg _ (funext fun ax => Fin.ext ?_)
  match ax with
  | ⟨0, _⟩ => show win1_0.index t (0 : Fin 4) * 8 + 1 * n'.val = N.val; omega
  | ⟨1, _⟩ => show win1_0.index t (1 : Fin 4) * 32 + 1 * k.val = b.val * 32 + k.val; omega
  | ⟨2, _⟩ => show win1_0.index t (2 : Fin 4) * 56 + 1 * h.val = h.val; omega
  | ⟨3, _⟩ => show win1_0.index t (3 : Fin 4) * 56 + 1 * w.val = w.val; omega

/-- The means' block is the whole column. -/
private theorem mublk_apply (c : Dev nD) (t : Fin cfg1.N) (e0 : win1_1.index t (0 : Fin 2) = 0) (e1 : win1_1.index t (1 : Fin 2) = 0)
    (k : Fin 32) : mublk V c t (ix2 k (0 : Fin 1)) = (V c main_v2 : Spec.SC.Idx → EReal) (ix2 k (0 : Fin 1)) := by
  show (V c main_v2 : Spec.SC.Idx → EReal) (((cfg1.win 1).blk t).view.emb (ix2 k (0 : Fin 1))) = _
  refine congrArg _ (funext fun ax => Fin.ext ?_)
  match ax with
  | ⟨0, _⟩ => show win1_1.index t (0 : Fin 2) * 32 + 1 * k.val = k.val; omega
  | ⟨1, _⟩ => show win1_1.index t (1 : Fin 2) * 1 + 1 * 0 = 0; omega

/-- The matrix's block is the whole matrix. -/
private theorem wmblk_apply (c : Dev nD) (t : Fin cfg1.N) (e0 : win1_2.index t (0 : Fin 2) = 0) (e1 : win1_2.index t (1 : Fin 2) = 0)
    (g k : Fin 32) : wmblk V c t (ix2 g k) = (V c main_v69 : Spec.SM.Idx → EReal) (ix2 g k) := by
  show (V c main_v69 : Spec.SM.Idx → EReal) (((cfg1.win 2).blk t).view.emb (ix2 g k)) = _
  refine congrArg _ (funext fun ax => Fin.ext ?_)
  match ax with
  | ⟨0, _⟩ => show win1_2.index t (0 : Fin 2) * 32 + 1 * g.val = g.val; omega
  | ⟨1, _⟩ => show win1_2.index t (1 : Fin 2) * 32 + 1 * k.val = k.val; omega

/-- The scale's block is row b of the [8, 1, 32] scale. -/
private theorem sclblk_apply (c : Dev nD) (t : Fin cfg1.N) (b : Fin 8) (e0 : win1_3.index t (0 : Fin 3) = b.val)
    (e1 : win1_3.index t (1 : Fin 3) = 0) (e2 : win1_3.index t (2 : Fin 3) = 0) (g : Fin 32) :
    sclblk V c t (ix3 (0 : Fin 1) (0 : Fin 1) g) = (V c main_v72 : S8x1x32.Idx → EReal) (ix3 b (0 : Fin 1) g) := by
  show (V c main_v72 : S8x1x32.Idx → EReal) (((cfg1.win 3).blk t).view.emb (ix3 (0 : Fin 1) (0 : Fin 1) g)) = _
  refine congrArg _ (funext fun ax => Fin.ext ?_)
  match ax with
  | ⟨0, _⟩ => show win1_3.index t (0 : Fin 3) * 1 + 1 * 0 = b.val; omega
  | ⟨1, _⟩ => show win1_3.index t (1 : Fin 3) * 1 + 1 * 0 = 0; omega
  | ⟨2, _⟩ => show win1_3.index t (2 : Fin 3) * 32 + 1 * g.val = g.val; omega

/-- The shift's block is row b of the [8, 1, 32] shift. -/
private theorem shfblk_apply (c : Dev nD) (t : Fin cfg1.N) (b : Fin 8) (e0 : win1_4.index t (0 : Fin 3) = b.val)
    (e1 : win1_4.index t (1 : Fin 3) = 0) (e2 : win1_4.index t (2 : Fin 3) = 0) (g : Fin 32) :
    shfblk V c t (ix3 (0 : Fin 1) (0 : Fin 1) g) = (V c main_v73 : S8x1x32.Idx → EReal) (ix3 b (0 : Fin 1) g) := by
  show (V c main_v73 : S8x1x32.Idx → EReal) (((cfg1.win 4).blk t).view.emb (ix3 (0 : Fin 1) (0 : Fin 1) g)) = _
  refine congrArg _ (funext fun ax => Fin.ext ?_)
  match ax with
  | ⟨0, _⟩ => show win1_4.index t (0 : Fin 3) * 1 + 1 * 0 = b.val; omega
  | ⟨1, _⟩ => show win1_4.index t (1 : Fin 3) * 1 + 1 * 0 = 0; omega
  | ⟨2, _⟩ => show win1_4.index t (2 : Fin 3) * 32 + 1 * g.val = g.val; omega

/-! ## From the points' blocks to the array -/

private theorem hz4 : (![0, 0, 0, 0] : Fin 4 → Nat) = fun _ => 0 := funext fun a => by fin_cases a <;> rfl
private theorem hz3 : (![0, 0, 0] : Fin 3 → Nat) = fun _ => 0 := funext fun a => by fin_cases a <;> rfl
private theorem hz2 : (![0, 0] : Fin 2 → Nat) = fun _ => 0 := funext fun a => by fin_cases a <;> rfl

/-- The closed form: the whitened, scaled and shifted output as one function of the arrays the pass was entered with. -/
private abbrev G (c : Dev nD) : Spec.SX.Idx → EReal :=
  Spec.apply (V c main_v69) (V c main_v2) (V c main_arg0)
    (fun ch => (V c main_v72 : S8x1x32.Idx → EReal) (ix3 (Spec.blk ch) (0 : Fin 1) (Spec.grp ch)))
    (fun ch => (V c main_v73 : S8x1x32.Idx → EReal) (ix3 (Spec.blk ch) (0 : Fin 1) (Spec.grp ch)))

/-- What point t writes back is block t of the closed form. -/
private theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz4]
  simp only [View.ld_unit_zero (S := S8x32x56x56) hz4, View.ld_unit_zero (S := S32x1) hz2, View.ld_unit_zero (S := S32x32) hz2,
    View.ld_unit_zero (S := S1x1x32) hz3]
  obtain ⟨e00, e01, e02, e03, e52, e53, e10, e11, e20, e21, e30, e31, e32, e40, e41, e42, l0, l1⟩ := idx_facts t
  funext j
  obtain ⟨n', g, h, w, rfl⟩ : ∃ (n' : Fin 8) (g : Fin 32) (h w : Fin 56), j = ix4 n' g h w := ⟨j 0, j 1, j 2, j 3, eq_ix4 j⟩
  have hN : win1_5.index t (0 : Fin 4) * 8 + n'.val < 64 := by have := n'.isLt; omega
  have hC : win1_5.index t (1 : Fin 4) * 32 + g.val < 256 := by have := g.isLt; omega
  have hI : ((cfg1.win 5).blk t).view.emb (ix4 n' g h w)
      = (ix4 (⟨win1_5.index t (0 : Fin 4) * 8 + n'.val, hN⟩ : Fin 64) (⟨win1_5.index t (1 : Fin 4) * 32 + g.val, hC⟩ : Fin 256) h w : Spec.SX.Idx) := by
    funext ax; apply Fin.ext
    match ax with
    | ⟨0, _⟩ => show win1_5.index t (0 : Fin 4) * 8 + 1 * n'.val = win1_5.index t (0 : Fin 4) * 8 + n'.val; omega
    | ⟨1, _⟩ => show win1_5.index t (1 : Fin 4) * 32 + 1 * g.val = win1_5.index t (1 : Fin 4) * 32 + g.val; omega
    | ⟨2, _⟩ => show win1_5.index t (2 : Fin 4) * 56 + 1 * h.val = h.val; omega
    | ⟨3, _⟩ => show win1_5.index t (3 : Fin 4) * 56 + 1 * w.val = w.val; omega
  show k1_pay1 (F := Ideal) (xblk V c t) (mublk V c t) (wmblk V c t) (sclblk V c t) (shfblk V c t) (ix4 n' g h w)
      = G V c (((cfg1.win 5).blk t).view.emb (ix4 n' g h w))
  rw [hI]
  exact point_eq (V c main_arg0) (V c main_v2) (V c main_v69) (V c main_v72) (V c main_v73)
    (xblk V c t) (mublk V c t) (wmblk V c t) (sclblk V c t) (shfblk V c t)
    (⟨win1_5.index t (0 : Fin 4), by omega⟩ : Fin 8) (⟨win1_5.index t (1 : Fin 4), by omega⟩ : Fin 8)
    (fun n' k h w N hN' => xblk_apply V c t ⟨win1_5.index t (0 : Fin 4), by omega⟩ ⟨win1_5.index t (1 : Fin 4), by omega⟩ e00 e01 e02 e03 n' k h w N hN')
    (fun k => mublk_apply V c t e10 e11 k)
    (fun g k => wmblk_apply V c t e20 e21 g k)
    (fun g => sclblk_apply V c t ⟨win1_5.index t (1 : Fin 4), by omega⟩ e30 e31 e32 g)
    (fun g => shfblk_apply V c t ⟨win1_5.index t (1 : Fin 4), by omega⟩ e40 e41 e42 g)
    n' g h w ⟨win1_5.index t (0 : Fin 4) * 8 + n'.val, hN⟩ ⟨win1_5.index t (1 : Fin 4) * 32 + g.val, hC⟩ rfl rfl

/-- An index of the output array is in point t's block iff each coordinate is in the block's range on its axis. -/
private theorem mem_blk (t : Fin cfg1.N) (i : S64x256x56x56.Idx) :
    i ∈ ((cfg1.win 5).blk t).view.set ↔ ∀ a : Fin 4, win1_5.index t a * S8x32x56x56.size a ≤ (i a).val
      ∧ (i a).val < win1_5.index t a * S8x32x56x56.size a + S8x32x56x56.size a := by
  show i ∈ ((View.whole main_v74).slice (win1_5.rect t)).set ↔ _
  rw [View.set_slice_whole, Rect.mem_set_unit]
  exact Iff.rfl

/-- Every index (n, ch, h, w) of the output lies in the block of the point at batch tile n / 8 and channel block ch / 32,
    and every point writes its block back. -/
private theorem cover (i : S64x256x56x56.Idx) :
    ∃ t : Fin cfg1.N, (cfg1.win 5).flush t = true ∧ i ∈ ((cfg1.win 5).blk t).view.set := by
  have hi0 : (i 0).val < 64 := (i 0).isLt
  have hi1 : (i 1).val < 256 := (i 1).isLt
  have hi2 : (i 2).val < 56 := (i 2).isLt
  have hi3 : (i 3).val < 56 := (i 3).isLt
  obtain ⟨t, ht⟩ := idx_onto ⟨(i 0).val / 8, by omega⟩ ⟨(i 1).val / 32, by omega⟩
  have q0 : win1_5.index t (0 : Fin 4) = (i 0).val / 8 := congrFun ht 0
  have q1 : win1_5.index t (1 : Fin 4) = (i 1).val / 32 := congrFun ht 1
  have q2 : win1_5.index t (2 : Fin 4) = 0 := congrFun ht 2
  have q3 : win1_5.index t (3 : Fin 4) = 0 := congrFun ht 3
  refine ⟨t, flush1_5 t, ?_⟩
  rw [mem_blk]
  intro a
  match a with
  | ⟨0, _⟩ => show win1_5.index t (0 : Fin 4) * 8 ≤ (i 0).val ∧ (i 0).val < win1_5.index t (0 : Fin 4) * 8 + 8; omega
  | ⟨1, _⟩ => show win1_5.index t (1 : Fin 4) * 32 ≤ (i 1).val ∧ (i 1).val < win1_5.index t (1 : Fin 4) * 32 + 32; omega
  | ⟨2, _⟩ => show win1_5.index t (2 : Fin 4) * 56 ≤ (i 2).val ∧ (i 2).val < win1_5.index t (2 : Fin 4) * 56 + 56; omega
  | ⟨3, _⟩ => show win1_5.index t (3 : Fin 4) * 56 ≤ (i 3).val ∧ (i 3).val < win1_5.index t (3 : Fin 4) * 56 + 56; omega

/-- The whitening pass's output array after its 64 grid points, as one function of the arrays it was entered with. -/
theorem apply_final (c : Dev nD) :
    ((dat1 (F := Ideal) V c).arrAt 5 cfg1.N : Spec.SX.Idx → EReal)
      = Spec.apply (V c main_v69) (V c main_v2) (V c main_arg0)
          (fun ch => (V c main_v72 : S8x1x32.Idx → EReal) (ix3 (Spec.blk ch) (0 : Fin 1) (Spec.grp ch)))
          (fun ch => (V c main_v73 : S8x1x32.Idx → EReal) (ix3 (Spec.blk ch) (0 : Fin 1) (Spec.grp ch))) :=
  (dat1 (F := Ideal) V c).arrAt_eq_of_cover 5 (G V c) (fun t _ => flushed_eq V c t) cover

end Cert.KernelIdeal.KApply

end
-- ==== Proof.RefOps.lean ====
import proofs.«173520_j44676249813412_1_alg».proof.Proof.Gen.ReferenceIdeal
import Idealize.ShloMosaic.Lib.StableHlo.Run

noncomputable section

namespace Cert.ReferenceIdeal.RefRun

open Idealize.ShloMosaic Idealize.ShloMosaic.TcCoe Idealize.SL.Sem Cert.ReferenceIdeal Cert.ReferenceIdeal.Gen

variable {F : FTy → Type} [FloatOps F]

set_option maxHeartbeats 40000000 in
set_option maxRecDepth 8192 in
/-- The 110 host operations of @main, in order. -/
abbrev ops : List (HloOp τ sig (Elt F)) :=
  ( StableHlo.reshape main_arg0 main_v0 rfl shapeCasts_S64x256x56x56_S512x32x56x56
  :: StableHlo.unary main_v0 main_v1 ((transpose S32x512x56x56 [1, 0, 2, 3] · transposes_S512x32x56x56_S32x512x56x56_1_0_2_3) : (⟨S512x32x56x56, .f32⟩ : BufTy).Contents (Elt F) → (⟨S32x512x56x56, .f32⟩ : BufTy).Contents (Elt F))
  :: StableHlo.reshape main_v1 main_v2 rfl shapeCasts_S32x512x56x56_S32x1605632
  :: StableHlo.nullary main_cst (constant S_ .f32 0x00000000#32)
  :: StableHlo.binary main_v2 main_cst main_v3 ((fun x v => Host.reduceAdd x v reducesTo_S32x1605632_S32_d1 h_S_) : (⟨S32x1605632, .f32⟩ : BufTy).Contents (Elt F) → (⟨S_, .f32⟩ : BufTy).Contents (Elt F) → (⟨S32, .f32⟩ : BufTy).Contents (Elt F))
  :: StableHlo.unary main_v3 main_v4 (broadcastInDim S32x1 ![0] bcast_S32_S32x1_0 : (⟨S32, .f32⟩ : BufTy).Contents (Elt F) → (⟨S32x1, .f32⟩ : BufTy).Contents (Elt F))
  :: StableHlo.nullary main_cst_0 (constant S_ .f32 0x49C40000#32)
  :: StableHlo.unary main_cst_0 main_v5 (broadcastInDim S32x1 ![] bcast_S_S32x1 : (⟨S_, .f32⟩ : BufTy).Contents (Elt F) → (⟨S32x1, .f32⟩ : BufTy).Contents (Elt F))
  :: StableHlo.binary main_v4 main_v5 main_v6 (Host.divf : (⟨S32x1, .f32⟩ : BufTy).Contents (Elt F) → (⟨S32x1, .f32⟩ : BufTy).Contents (Elt F) → (⟨S32x1, .f32⟩ : BufTy).Contents (Elt F))
  :: StableHlo.unary main_v6 main_v7 (broadcastInDim S32x1605632 ![0, 1] bcast_S32x1_S32x1605632_0_1 : (⟨S32x1, .f32⟩ : BufTy).Contents (Elt F) → (⟨S32x1605632, .f32⟩ : BufTy).Contents (Elt F))
  :: StableHlo.binary main_v2 main_v7 main_v8 (subf : (⟨S32x1605632, .f32⟩ : BufTy).Contents (Elt F) → (⟨S32x1605632, .f32⟩ : BufTy).Contents (Elt F) → (⟨S32x1605632, .f32⟩ : BufTy).Contents (Elt F))
  :: StableHlo.unary main_v8 main_v9 ((transpose S1605632x32 [1, 0] · transposes_S32x1605632_S1605632x32_1_0) : (⟨S32x1605632, .f32⟩ : BufTy).Contents (Elt F) → (⟨S1605632x32, .f32⟩ : BufTy).Contents (Elt F))
  :: StableHlo.binary main_v8 main_v9 main_v10 ((fun l r => Host.dotGeneral dot_S32x1605632_S1605632x32_S32x32_1_0_0_1_n_n none l r) : (⟨S32x1605632, .f32⟩ : BufTy).Contents (Elt F) → (⟨S1605632x32, .f32⟩ : BufTy).Contents (Elt F) → (⟨S32x32, .f32⟩ : BufTy).Contents (Elt F))
  :: StableHlo.nullary main_cst_1 (constant S_ .f32 0x49C40000#32)
  :: StableHlo.unary main_cst_1 main_v11 (broadcastInDim S32x32 ![] bcast_S_S32x32 : (⟨S_, .f32⟩ : BufTy).Contents (Elt F) → (⟨S32x32, .f32⟩ : BufTy).Contents (Elt F))
  :: StableHlo.binary main_v10 main_v11 main_v12 (Host.divf : (⟨S32x32, .f32⟩ : BufTy).Contents (Elt F) → (⟨S32x32, .f32⟩ : BufTy).Contents (Elt F) → (⟨S32x32, .f32⟩ : BufTy).Contents (Elt F))
  :: StableHlo.nullary main_v13 (iotaInDim S32x32 32 0)
  :: StableHlo.nullary main_v14 (iotaInDim S32x32 32 1)
  :: StableHlo.nullary main_c (constantI S_ 32 0#32)
  :: StableHlo.unary main_c main_v15 (broadcastInDim S32x32 ![] bcast_S_S32x32 : (⟨S_, .i32⟩ : BufTy).Contents (Elt F) → (⟨S32x32, .i32⟩ : BufTy).Contents (Elt F))
  :: StableHlo.binary main_v13 main_v15 main_v16 (addi : (⟨S32x32, .i32⟩ : BufTy).Contents (Elt F) → (⟨S32x32, .i32⟩ : BufTy).Contents (Elt F) → (⟨S32x32, .i32⟩ : BufTy).Contents (Elt F))
  :: StableHlo.binary main_v16 main_v14 main_v17 (cmpi .eq : (⟨S32x32, .i32⟩ : BufTy).Contents (Elt F) → (⟨S32x32, .i32⟩ : BufTy).Contents (Elt F) → (⟨S32x32, .i1⟩ : BufTy).Contents (Elt F))
  :: StableHlo.unary main_v17 main_v18 (uitofp .f32 : (⟨S32x32, .i1⟩ : BufTy).Contents (Elt F) → (⟨S32x32, .f32⟩ : BufTy).Contents (Elt F))
  :: StableHlo.nullary main_cst_2 (constant S_ .f32 0x3727C5AC#32)
  :: StableHlo.unary main_cst_2 main_v19 (broadcastInDim S32x32 ![] bcast_S_S32x32 : (⟨S_, .f32⟩ : BufTy).Contents (Elt F) → (⟨S32x32, .f32⟩ : BufTy).Contents (Elt F))
  :: StableHlo.binary main_v19 main_v18 main_v20 (mulf : (⟨S32x32, .f32⟩ : BufTy).Contents (Elt F) → (⟨S32x32, .f32⟩ : BufTy).Contents (Elt F) → (⟨S32x32, .f32⟩ : BufTy).Contents (Elt F))
  :: StableHlo.binary main_v12 main_v20 main_v21 (addf : (⟨S32x32, .f32⟩ : BufTy).Contents (Elt F) → (⟨S32x32, .f32⟩ : BufTy).Contents (Elt F) → (⟨S32x32, .f32⟩ : BufTy).Contents (Elt F))
  :: StableHlo.TRef.nullary main_call0.v0 (iotaInDim S32x32 32 0)
  :: StableHlo.TRef.nullary main_call0.v1 (iotaInDim S32x32 32 1)
  :: StableHlo.TRef.nullary main_call0.c (constantI S_ 32 0#32)
  :: StableHlo.TRef.unary main_call0.c main_call0.v2 (broadcastInDim S32x32 ![] bcast_S_S32x32)
  :: StableHlo.TRef.binary main_call0.v0 main_call0.v2 main_call0.v3 addi
  :: StableHlo.TRef.binary main_call0.v3 main_call0.v1 main_call0.v4 (cmpi .eq)
  :: StableHlo.TRef.nullary main_call0.cst (constant S_ .f32 0x00000000#32)
  :: StableHlo.TRef.unary main_call0.cst main_call0.v5 (broadcastInDim S32x32 ![] bcast_S_S32x32)
  :: StableHlo.TRef.ternary main_call0.v4 (.of main_v21) main_call0.v5 main_call0.call0.v0 select
  :: StableHlo.TRef.nullary main_call0.cst_0 (constant S_ .f32 0x00000000#32)
  :: StableHlo.TRef.binary main_call0.call0.v0 main_call0.cst_0 main_call0.v7 (fun x v => Host.reduceAdd x v reducesTo_S32x32_S_d0_1 h_S_)
  :: StableHlo.nullary main_cst_3 (constant S_ .f32 0x3F800000#32)
  :: StableHlo.binary main_cst_3 main_v22 main_v23 (Host.divf : (⟨S_, .f32⟩ : BufTy).Contents (Elt F) → (⟨S_, .f32⟩ : BufTy).Contents (Elt F) → (⟨S_, .f32⟩ : BufTy).Contents (Elt F))
  :: StableHlo.unary main_v23 main_v24 (broadcastInDim S32x32 ![] bcast_S_S32x32 : (⟨S_, .f32⟩ : BufTy).Contents (Elt F) → (⟨S32x32, .f32⟩ : BufTy).Contents (Elt F))
  :: StableHlo.binary main_v21 main_v24 main_v25 (mulf : (⟨S32x32, .f32⟩ : BufTy).Contents (Elt F) → (⟨S32x32, .f32⟩ : BufTy).Contents (Elt F) → (⟨S32x32, .f32⟩ : BufTy).Contents (Elt F))
  :: StableHlo.nullary main_v26 (iotaInDim S32x32 32 0)
  :: StableHlo.nullary main_v27 (iotaInDim S32x32 32 1)
  :: StableHlo.nullary main_c_4 (constantI S_ 32 0#32)
  :: StableHlo.unary main_c_4 main_v28 (broadcastInDim S32x32 ![] bcast_S_S32x32 : (⟨S_, .i32⟩ : BufTy).Contents (Elt F) → (⟨S32x32, .i32⟩ : BufTy).Contents (Elt F))
  :: StableHlo.binary main_v26 main_v28 main_v29 (addi : (⟨S32x32, .i32⟩ : BufTy).Contents (Elt F) → (⟨S32x32, .i32⟩ : BufTy).Contents (Elt F) → (⟨S32x32, .i32⟩ : BufTy).Contents (Elt F))
  :: StableHlo.binary main_v29 main_v27 main_v30 (cmpi .eq : (⟨S32x32, .i32⟩ : BufTy).Contents (Elt F) → (⟨S32x32, .i32⟩ : BufTy).Contents (Elt F) → (⟨S32x32, .i1⟩ : BufTy).Contents (Elt F))
  :: StableHlo.unary main_v30 main_v31 (uitofp .f32 : (⟨S32x32, .i1⟩ : BufTy).Contents (Elt F) → (⟨S32x32, .f32⟩ : BufTy).Contents (Elt F))
  :: StableHlo.nullary main_cst_5 (constant S_ .f32 0x3FC00000#32)
  :: StableHlo.unary main_cst_5 main_v32 (broadcastInDim S32x32 ![] bcast_S_S32x32 : (⟨S_, .f32⟩ : BufTy).Contents (Elt F) → (⟨S32x32, .f32⟩ : BufTy).Contents (Elt F))
  :: StableHlo.binary main_v32 main_v31 main_v33 (mulf : (⟨S32x32, .f32⟩ : BufTy).Contents (Elt F) → (⟨S32x32, .f32⟩ : BufTy).Contents (Elt F) → (⟨S32x32, .f32⟩ : BufTy).Contents (Elt F))
  :: StableHlo.binary main_v31 main_v31 main_v34 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v34 main_v31 main_v35 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.nullary main_cst_6 (constant S_ .f32 0x3F000000#32)
  :: StableHlo.unary main_cst_6 main_v36 (broadcastInDim S32x32 ![] bcast_S_S32x32 : (⟨S_, .f32⟩ : BufTy).Contents (Elt F) → (⟨S32x32, .f32⟩ : BufTy).Contents (Elt F))
  :: StableHlo.binary main_v36 main_v35 main_v37 (mulf : (⟨S32x32, .f32⟩ : BufTy).Contents (Elt F) → (⟨S32x32, .f32⟩ : BufTy).Contents (Elt F) → (⟨S32x32, .f32⟩ : BufTy).Contents (Elt F))
  :: StableHlo.binary main_v37 main_v25 main_v38 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v33 main_v38 main_v39 (subf : (⟨S32x32, .f32⟩ : BufTy).Contents (Elt F) → (⟨S32x32, .f32⟩ : BufTy).Contents (Elt F) → (⟨S32x32, .f32⟩ : BufTy).Contents (Elt F))
  :: StableHlo.nullary main_cst_7 (constant S_ .f32 0x3FC00000#32)
  :: StableHlo.unary main_cst_7 main_v40 (broadcastInDim S32x32 ![] bcast_S_S32x32 : (⟨S_, .f32⟩ : BufTy).Contents (Elt F) → (⟨S32x32, .f32⟩ : BufTy).Contents (Elt F))
  :: StableHlo.binary main_v40 main_v39 main_v41 (mulf : (⟨S32x32, .f32⟩ : BufTy).Contents (Elt F) → (⟨S32x32, .f32⟩ : BufTy).Contents (Elt F) → (⟨S32x32, .f32⟩ : BufTy).Contents (Elt F))
  :: StableHlo.binary main_v39 main_v39 main_v42 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v42 main_v39 main_v43 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.nullary main_cst_8 (constant S_ .f32 0x3F000000#32)
  :: StableHlo.unary main_cst_8 main_v44 (broadcastInDim S32x32 ![] bcast_S_S32x32 : (⟨S_, .f32⟩ : BufTy).Contents (Elt F) → (⟨S32x32, .f32⟩ : BufTy).Contents (Elt F))
  :: StableHlo.binary main_v44 main_v43 main_v45 (mulf : (⟨S32x32, .f32⟩ : BufTy).Contents (Elt F) → (⟨S32x32, .f32⟩ : BufTy).Contents (Elt F) → (⟨S32x32, .f32⟩ : BufTy).Contents (Elt F))
  :: StableHlo.binary main_v45 main_v25 main_v46 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v41 main_v46 main_v47 (subf : (⟨S32x32, .f32⟩ : BufTy).Contents (Elt F) → (⟨S32x32, .f32⟩ : BufTy).Contents (Elt F) → (⟨S32x32, .f32⟩ : BufTy).Contents (Elt F))
  :: StableHlo.nullary main_cst_9 (constant S_ .f32 0x3FC00000#32)
  :: StableHlo.unary main_cst_9 main_v48 (broadcastInDim S32x32 ![] bcast_S_S32x32 : (⟨S_, .f32⟩ : BufTy).Contents (Elt F) → (⟨S32x32, .f32⟩ : BufTy).Contents (Elt F))
  :: StableHlo.binary main_v48 main_v47 main_v49 (mulf : (⟨S32x32, .f32⟩ : BufTy).Contents (Elt F) → (⟨S32x32, .f32⟩ : BufTy).Contents (Elt F) → (⟨S32x32, .f32⟩ : BufTy).Contents (Elt F))
  :: StableHlo.binary main_v47 main_v47 main_v50 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v50 main_v47 main_v51 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.nullary main_cst_10 (constant S_ .f32 0x3F000000#32)
  :: StableHlo.unary main_cst_10 main_v52 (broadcastInDim S32x32 ![] bcast_S_S32x32 : (⟨S_, .f32⟩ : BufTy).Contents (Elt F) → (⟨S32x32, .f32⟩ : BufTy).Contents (Elt F))
  :: StableHlo.binary main_v52 main_v51 main_v53 (mulf : (⟨S32x32, .f32⟩ : BufTy).Contents (Elt F) → (⟨S32x32, .f32⟩ : BufTy).Contents (Elt F) → (⟨S32x32, .f32⟩ : BufTy).Contents (Elt F))
  :: StableHlo.binary main_v53 main_v25 main_v54 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v49 main_v54 main_v55 (subf : (⟨S32x32, .f32⟩ : BufTy).Contents (Elt F) → (⟨S32x32, .f32⟩ : BufTy).Contents (Elt F) → (⟨S32x32, .f32⟩ : BufTy).Contents (Elt F))
  :: StableHlo.nullary main_cst_11 (constant S_ .f32 0x3FC00000#32)
  :: StableHlo.unary main_cst_11 main_v56 (broadcastInDim S32x32 ![] bcast_S_S32x32 : (⟨S_, .f32⟩ : BufTy).Contents (Elt F) → (⟨S32x32, .f32⟩ : BufTy).Contents (Elt F))
  :: StableHlo.binary main_v56 main_v55 main_v57 (mulf : (⟨S32x32, .f32⟩ : BufTy).Contents (Elt F) → (⟨S32x32, .f32⟩ : BufTy).Contents (Elt F) → (⟨S32x32, .f32⟩ : BufTy).Contents (Elt F))
  :: StableHlo.binary main_v55 main_v55 main_v58 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v58 main_v55 main_v59 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.nullary main_cst_12 (constant S_ .f32 0x3F000000#32)
  :: StableHlo.unary main_cst_12 main_v60 (broadcastInDim S32x32 ![] bcast_S_S32x32 : (⟨S_, .f32⟩ : BufTy).Contents (Elt F) → (⟨S32x32, .f32⟩ : BufTy).Contents (Elt F))
  :: StableHlo.binary main_v60 main_v59 main_v61 (mulf : (⟨S32x32, .f32⟩ : BufTy).Contents (Elt F) → (⟨S32x32, .f32⟩ : BufTy).Contents (Elt F) → (⟨S32x32, .f32⟩ : BufTy).Contents (Elt F))
  :: StableHlo.binary main_v61 main_v25 main_v62 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v57 main_v62 main_v63 (subf : (⟨S32x32, .f32⟩ : BufTy).Contents (Elt F) → (⟨S32x32, .f32⟩ : BufTy).Contents (Elt F) → (⟨S32x32, .f32⟩ : BufTy).Contents (Elt F))
  :: StableHlo.nullary main_cst_13 (constant S_ .f32 0x3FC00000#32)
  :: StableHlo.unary main_cst_13 main_v64 (broadcastInDim S32x32 ![] bcast_S_S32x32 : (⟨S_, .f32⟩ : BufTy).Contents (Elt F) → (⟨S32x32, .f32⟩ : BufTy).Contents (Elt F))
  :: StableHlo.binary main_v64 main_v63 main_v65 (mulf : (⟨S32x32, .f32⟩ : BufTy).Contents (Elt F) → (⟨S32x32, .f32⟩ : BufTy).Contents (Elt F) → (⟨S32x32, .f32⟩ : BufTy).Contents (Elt F))
  :: StableHlo.binary main_v63 main_v63 main_v66 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v66 main_v63 main_v67 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.nullary main_cst_14 (constant S_ .f32 0x3F000000#32)
  :: StableHlo.unary main_cst_14 main_v68 (broadcastInDim S32x32 ![] bcast_S_S32x32 : (⟨S_, .f32⟩ : BufTy).Contents (Elt F) → (⟨S32x32, .f32⟩ : BufTy).Contents (Elt F))
  :: StableHlo.binary main_v68 main_v67 main_v69 (mulf : (⟨S32x32, .f32⟩ : BufTy).Contents (Elt F) → (⟨S32x32, .f32⟩ : BufTy).Contents (Elt F) → (⟨S32x32, .f32⟩ : BufTy).Contents (Elt F))
  :: StableHlo.binary main_v69 main_v25 main_v70 ((fun l r => Host.dotGeneral dot_S32x32_S32x32_S32x32_1_0_0_1_n_n none l r) : (⟨S32x32, .f32⟩ : BufTy).Contents (Elt F) → (⟨S32x32, .f32⟩ : BufTy).Contents (Elt F) → (⟨S32x32, .f32⟩ : BufTy).Contents (Elt F))
  :: StableHlo.binary main_v65 main_v70 main_v71 (subf : (⟨S32x32, .f32⟩ : BufTy).Contents (Elt F) → (⟨S32x32, .f32⟩ : BufTy).Contents (Elt F) → (⟨S32x32, .f32⟩ : BufTy).Contents (Elt F))
  :: StableHlo.unary main_v23 main_v72 (Host.sqrt : (⟨S_, .f32⟩ : BufTy).Contents (Elt F) → (⟨S_, .f32⟩ : BufTy).Contents (Elt F))
  :: StableHlo.unary main_v72 main_v73 (broadcastInDim S32x32 ![] bcast_S_S32x32 : (⟨S_, .f32⟩ : BufTy).Contents (Elt F) → (⟨S32x32, .f32⟩ : BufTy).Contents (Elt F))
  :: StableHlo.binary main_v71 main_v73 main_v74 (mulf : (⟨S32x32, .f32⟩ : BufTy).Contents (Elt F) → (⟨S32x32, .f32⟩ : BufTy).Contents (Elt F) → (⟨S32x32, .f32⟩ : BufTy).Contents (Elt F))
  :: StableHlo.binary main_v74 main_v8 main_v75 ((fun l r => Host.dotGeneral dot_S32x32_S32x1605632_S32x1605632_1_0_0_1_n_n none l r) : (⟨S32x32, .f32⟩ : BufTy).Contents (Elt F) → (⟨S32x1605632, .f32⟩ : BufTy).Contents (Elt F) → (⟨S32x1605632, .f32⟩ : BufTy).Contents (Elt F))
  :: StableHlo.reshape main_v75 main_v76 rfl shapeCasts_S32x1605632_S32x512x56x56
  :: StableHlo.unary main_v76 main_v77 ((transpose S512x32x56x56 [1, 0, 2, 3] · transposes_S32x512x56x56_S512x32x56x56_1_0_2_3) : (⟨S32x512x56x56, .f32⟩ : BufTy).Contents (Elt F) → (⟨S512x32x56x56, .f32⟩ : BufTy).Contents (Elt F))
  :: StableHlo.reshape main_v77 main_v78 rfl shapeCasts_S512x32x56x56_S64x256x56x56
  :: StableHlo.unary main_arg1 main_v79 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F))
  :: StableHlo.binary main_v78 main_v79 main_v80 (mulf : (⟨S64x256x56x56, .f32⟩ : BufTy).Contents (Elt F) → (⟨S64x256x56x56, .f32⟩ : BufTy).Contents (Elt F) → (⟨S64x256x56x56, .f32⟩ : BufTy).Contents (Elt F))
  :: StableHlo.unary main_arg2 main_v81 (broadcastInDim S64x256x56x56 ![0, 1, 2, 3] bcast_S1x256x1x1_S64x256x56x56_0_1_2_3 : (⟨S1x256x1x1, .f32⟩ : BufTy).Contents (Elt F) → (⟨S64x256x56x56, .f32⟩ : BufTy).Contents (Elt F))
  :: StableHlo.binary main_v80 main_v81 main_v82 (addf : (⟨S64x256x56x56, .f32⟩ : BufTy).Contents (Elt F) → (⟨S64x256x56x56, .f32⟩ : BufTy).Contents (Elt F) → (⟨S64x256x56x56, .f32⟩ : BufTy).Contents (Elt F))
  :: [] )

end Cert.ReferenceIdeal.RefRun

end
-- ==== Proof.RefRun.lean ====
/-
  The reference's run: @main is the straight line of its host operations, so every weakly fair execution terminates
  with each buffer at the operations' fold over the launch contents; the argument buffers are written by none.
-/
import proofs.«173520_j44676249813412_1_alg».proof.Proof.RefOps
import Idealize.ShloMosaic.Lib.StableHlo.Run
import Idealize.ShloMosaic.Lib.ValueIdx

noncomputable section

namespace Cert.ReferenceIdeal.RefRun

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RefRun

variable {F : FTy → Type} [FloatOps F]

set_option maxRecDepth 8192 in
set_option maxHeartbeats 4000000 in
/-- @main is the straight line of the listed operations. -/
theorem main_eq (c : Dev nD) : main (F := F) c = seq ops := by
  simp only [main, main_part0, main_part1, fn_trace.body, fn_where.body, seq, bind_assoc, pure_bind]

/-- The signature scopes no buffer and no semaphore on the TensorCore. -/
private theorem scopedRefs_eq : (Finset.univ.filter fun b : Ref sig .tc => b.isScoped) = ∅ := by decide
private theorem scopedSems_eq : (Finset.univ.filter fun sm : SemLoc sig => sm.isScoped .tc) = ∅ := by decide

set_option maxRecDepth 8192 in
/-- Every operation touches TensorCore references only: each is one of the builders, whose buffers are its operands
    and its result. -/
private theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub,
    and_self]

/-- The run: each buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
/-- A reference that differs from every operation's result is written by none, so the fold leaves it as it was. -/
private theorem after_ops_of_ne (V : Valuation τ sig (Elt F)) (r : Ref sig .tc)
    (h : (ops : List (HloOp τ sig (Elt F))).Forall fun op => (Proc.devRef (τ := τ) .tc r) ∉ op.writes) :
    after ops V (r : DevRef τ sig) = V (r : DevRef τ sig) :=
  after_of_forall_not_mem (b := Proc.devRef .tc r) ops V (List.forall_iff_forall_mem.mp h)

set_option maxRecDepth 8192 in
/-- No operation writes an argument. -/
theorem arg0_eq (V : Valuation τ sig (Elt F)) : after ops V (main_arg0 : DevRef τ sig) = V (main_arg0 : DevRef τ sig) := by
  refine after_ops_of_ne V main_arg0 ?_
  simp only [ops, List.Forall, nullary_writes, unary_writes, binary_writes, ternary_writes, reshape_writes, Finset.mem_singleton]
  repeat' apply And.intro
  all_goals exact devRef_ne_of_ne (by decide)
set_option maxRecDepth 8192 in
theorem arg1_eq (V : Valuation τ sig (Elt F)) : after ops V (main_arg1 : DevRef τ sig) = V (main_arg1 : DevRef τ sig) := by
  refine after_ops_of_ne V main_arg1 ?_
  simp only [ops, List.Forall, nullary_writes, unary_writes, binary_writes, ternary_writes, reshape_writes, Finset.mem_singleton]
  repeat' apply And.intro
  all_goals exact devRef_ne_of_ne (by decide)
set_option maxRecDepth 8192 in
theorem arg2_eq (V : Valuation τ sig (Elt F)) : after ops V (main_arg2 : DevRef τ sig) = V (main_arg2 : DevRef τ sig) := by
  refine after_ops_of_ne V main_arg2 ?_
  simp only [ops, List.Forall, nullary_writes, unary_writes, binary_writes, ternary_writes, reshape_writes, Finset.mem_singleton]
  repeat' apply And.intro
  all_goals exact devRef_ne_of_ne (by decide)

end Cert.ReferenceIdeal.RefRun

end
-- ==== Proof.RefStats.lean ====
/-
  The reference's statistics read as values: the group view of the input at a position, the means, the centred
  samples, and the covariance as the mean of products of centred samples plus the ridge.
-/
import proofs.«173520_j44676249813412_1_alg».proof.Proof.RefOps
import proofs.«173520_j44676249813412_1_alg».proof.Proof.Spec
import proofs.«173520_j44676249813412_1_alg».proof.Proof.SpecAlg
import proofs.«173520_j44676249813412_1_alg».proof.Proof.LibHostRead
import Idealize.ShloMosaic.Lib.Pipeline.Value
import Idealize.ShloMosaic.Lib.StableHlo.Run

noncomputable section

namespace Cert.ReferenceIdeal.RefStats

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RefRun

variable (V : Valuation τ sig (Elt Ideal))

/-- The launch array the reference reads. -/
abbrev xin : Spec.SX.Idx → EReal := V (main_arg0 : DevRef τ sig)

/-! ## The reference's arrays as functions of the input

The reference regroups the input so that group g's samples form row g of a [32, 1605632] array: the batch and channel
axes are split as (n, (j, g)), the channel block j is moved next to n, and (n, j, h, w) are flattened row-major. -/

/-- The group view: row g holds group g's samples, sample (n, j, h, w) at row-major position ((8 n + j) 56 + h) 56 + w. -/
private def groupView (x : FVec Ideal S64x256x56x56 .f32) : FVec Ideal S32x1605632 .f32 :=
  shapeCast S32x1605632
    (transpose S32x512x56x56 [1, 0, 2, 3] (shapeCast S512x32x56x56 x shapeCasts_S64x256x56x56_S512x32x56x56)
      transposes_S512x32x56x56_S32x512x56x56_1_0_2_3)
    shapeCasts_S32x512x56x56_S32x1605632

/-- The sums of the rows, from zero. -/
private def rowSums (y : FVec Ideal S32x1605632 .f32) : FVec Ideal S32 .f32 :=
  Host.reduceAdd y (constant S_ .f32 0x00000000#32) reducesTo_S32x1605632_S32_d1 h_S_

/-- The row means as a column: each row sum divided by the number of samples. -/
private def rowMeans (y : FVec Ideal S32x1605632 .f32) : FVec Ideal S32x1 .f32 :=
  Host.divf (broadcastInDim S32x1 ![0] bcast_S32_S32x1_0 (rowSums y))
    (broadcastInDim S32x1 ![] bcast_S_S32x1 (constant S_ .f32 0x49C40000#32))

/-- Every row less its mean. -/
private def centred (y : FVec Ideal S32x1605632 .f32) : FVec Ideal S32x1605632 .f32 :=
  subf y (broadcastInDim S32x1605632 ![0, 1] bcast_S32x1_S32x1605632_0_1 (rowMeans y))

/-- The matrix of the rows' pairwise products summed along the row, divided by the number of samples. -/
private def meanProducts (z : FVec Ideal S32x1605632 .f32) : FVec Ideal S32x32 .f32 :=
  Host.divf
    (Host.dotGeneral dot_S32x1605632_S1605632x32_S32x32_1_0_0_1_n_n none z
      (transpose S1605632x32 [1, 0] z transposes_S32x1605632_S1605632x32_1_0))
    (broadcastInDim S32x32 ![] bcast_S_S32x32 (constant S_ .f32 0x49C40000#32))

/-! ## Each buffer as one of those functions -/

set_option maxHeartbeats 4000000 in
private theorem means_buffer :
    (after ops V (main_v6 : DevRef τ sig) : FVec Ideal S32x1 .f32) = rowMeans (groupView (xin V)) := by
  simp only [ops]
  after_results
  rfl

set_option maxHeartbeats 4000000 in
private theorem centred_buffer :
    (after ops V (main_v8 : DevRef τ sig) : FVec Ideal S32x1605632 .f32) = centred (groupView (xin V)) := by
  simp only [ops]
  after_results
  rfl

set_option maxHeartbeats 4000000 in
private theorem sigma_buffer :
    (after ops V (main_v21 : DevRef τ sig) : FVec Ideal S32x32 .f32)
      = addf (meanProducts (centred (groupView (xin V)))) (Spec.epsEye bcast_S_S32x32) := by
  simp only [ops]
  after_results
  rfl

/-! ## The arrays read at an index -/

/-- Row 8 n + j of the [512, 32, 56, 56] view: batch n, channel block j. -/
private def row (n : Fin 64) (j : Fin 8) : Fin 512 := ⟨n.val * 8 + j.val, by omega⟩

/-- The group view at group g and the position of sample (n, j, h, w) is the input at (n, 32 j + g, h, w). -/
private theorem groupView_apply (x : FVec Ideal S64x256x56x56 .f32) (g : Fin 32) (n : Fin 64) (j : Fin 8) (h w : Fin 56) :
    groupView x (ix2 g (Spec.flat n j h w)) = x (ix4 n (Spec.chan j g) h w) := by
  unfold groupView
  refine (shapeCast_apply _ shapeCasts_S32x512x56x56_S32x1605632 (ix2 g (Spec.flat n j h w)) (ix4 g (row n j) h w) ?_).trans ?_
  · rw [Shape.rowMajor_val_four, Shape.rowMajor_val_two]
    show ((g.val * 512 + (n.val * 8 + j.val)) * 56 + h.val) * 56 + w.val
      = g.val * 1605632 + (((n.val * 8 + j.val) * 56 + h.val) * 56 + w.val)
    omega
  refine (transpose_apply [1, 0, 2, 3] _ transposes_S512x32x56x56_S32x512x56x56_1_0_2_3 (ix4 g (row n j) h w)
    (ix4 (row n j) g h w) fun b => ?_).trans ?_
  · match b with
    | ⟨0, _⟩ => rfl
    | ⟨1, _⟩ => rfl
    | ⟨2, _⟩ => rfl
    | ⟨3, _⟩ => rfl
  refine shapeCast_apply x shapeCasts_S64x256x56x56_S512x32x56x56 (ix4 (row n j) g h w) (ix4 n (Spec.chan j g) h w) ?_
  rw [Shape.rowMajor_val_four, Shape.rowMajor_val_four]
  show ((n.val * 256 + (j.val * 32 + g.val)) * 56 + h.val) * 56 + w.val
    = (((n.val * 8 + j.val) * 32 + g.val) * 56 + h.val) * 56 + w.val
  omega

/-- A row sum of the group view is the group's sum over all sample positions. -/
private theorem rowSums_apply (x : FVec Ideal S64x256x56x56 .f32) (g : Fin 32) :
    rowSums (groupView x) (ix1 g) = Spec.tot (Spec.xg x g) := by
  unfold rowSums
  rw [Cert.LibHostRead.hostReduceAdd_rows_apply (groupView x) _ reducesTo_S32x1605632_S32_d1 h_S_
    ⟨reducesTo_S32x1605632_S32_d1.1, Nat.one_pos, reducesTo_S32x1605632_S32_d1.2⟩ g,
    constant_apply, Ideal.ofBits_zero_f32, zero_add, Spec.sum_flat]
  exact congrArg Spec.tot (funext fun n => funext fun j => funext fun h => funext fun w => groupView_apply x g n j h w)

/-- The row means of the group view are the group means. -/
private theorem rowMeans_apply (x : FVec Ideal S64x256x56x56 .f32) (g : Fin 32) (u : Fin 1) :
    rowMeans (groupView x) (ix2 g u) = Spec.muCol x (ix2 g u) := by
  unfold rowMeans
  rw [hostDivf_apply, Cert.LibHostRead.broadcastInDim_vec_col_apply, broadcastInDim_scalar_apply, constant_apply,
    rowSums_apply]
  rfl

/-- A centred row of the group view at a position: the entry less the group's mean. -/
private theorem centred_apply (x : FVec Ideal S64x256x56x56 .f32) (g : Fin 32) (p : Fin 1605632) :
    centred (groupView x) (ix2 g p) = groupView x (ix2 g p) - Spec.muCol x (ix2 g (0 : Fin 1)) := by
  unfold centred
  rw [subf_apply, broadcastInDim_apply ![0, 1] bcast_S32x1_S32x1605632_0_1 (rowMeans (groupView x)) (ix2 g p)
    (ix2 g (0 : Fin 1)) (fun a => by
      match a with
      | ⟨0, _⟩ => rfl
      | ⟨1, _⟩ => rfl), rowMeans_apply]

/-! ### The product contracting the long axis

The four coordinate facts of its dimension numbers: the result's row is the left operand's row, its column the right
operand's column, and the one contracted coordinate sits on the left's axis 1 and on the right's axis 0. -/

private theorem lhs_axis0 (i : S32x32.Idx) (q : dot_S32x1605632_S1605632x32_S32x32_1_0_0_1_n_n.contr.Idx) :
    (dot_S32x1605632_S1605632x32_S32x32_1_0_0_1_n_n.lhsIdx i q 0).val = (i 0).val := by
  unfold DotDims.lhsIdx
  rw [dif_neg (show ¬(0 : Fin S32x1605632.rank) ∈ dot_S32x1605632_S1605632x32_S32x32_1_0_0_1_n_n.lhsBatch by decide),
    dif_pos (show (0 : Fin S32x1605632.rank) ∈ dot_S32x1605632_S1605632x32_S32x32_1_0_0_1_n_n.lhsNonContracting by decide)]
  rfl

private theorem lhs_axis1 (i : S32x32.Idx) (q : dot_S32x1605632_S1605632x32_S32x32_1_0_0_1_n_n.contr.Idx) :
    (dot_S32x1605632_S1605632x32_S32x32_1_0_0_1_n_n.lhsIdx i q 1).val = (q ⟨0, by decide⟩).val :=
  dot_S32x1605632_S1605632x32_S32x32_1_0_0_1_n_n.lhsIdx_val_of_single rfl i q

private theorem rhs_axis0 (i : S32x32.Idx) (q : dot_S32x1605632_S1605632x32_S32x32_1_0_0_1_n_n.contr.Idx) :
    (dot_S32x1605632_S1605632x32_S32x32_1_0_0_1_n_n.rhsIdx i q 0).val = (q ⟨0, by decide⟩).val :=
  dot_S32x1605632_S1605632x32_S32x32_1_0_0_1_n_n.rhsIdx_val_of_single rfl i q

private theorem rhs_axis1 (i : S32x32.Idx) (q : dot_S32x1605632_S1605632x32_S32x32_1_0_0_1_n_n.contr.Idx) :
    (dot_S32x1605632_S1605632x32_S32x32_1_0_0_1_n_n.rhsIdx i q 1).val = (i 1).val := by
  unfold DotDims.rhsIdx
  rw [dif_neg (show ¬(1 : Fin S1605632x32.rank) ∈ dot_S32x1605632_S1605632x32_S32x32_1_0_0_1_n_n.rhsBatch by decide),
    dif_pos (show (1 : Fin S1605632x32.rank) ∈ dot_S32x1605632_S1605632x32_S32x32_1_0_0_1_n_n.rhsNonContracting by decide)]
  rfl

/-- The mean of products at (a, b): the sum over the row positions of row a times row b, over the number of samples. -/
private theorem meanProducts_apply (z : FVec Ideal S32x1605632 .f32) (a b : Fin 32) :
    meanProducts z (ix2 a b) = Ideal.div (∑ k : Fin 1605632, z (ix2 a k) * z (ix2 b k)) Spec.cnt := by
  unfold meanProducts
  rw [hostDivf_apply, broadcastInDim_scalar_apply, constant_apply,
    Cert.LibHostRead.hostDotGeneral_plain_apply dot_S32x1605632_S1605632x32_S32x32_1_0_0_1_n_n rfl rfl
      lhs_axis0 lhs_axis1 rhs_axis0 rhs_axis1 none z _ a b]
  refine congrArg (fun f : Fin 1605632 → EReal => Ideal.div (∑ k, f k) Spec.cnt) (funext fun k => ?_)
  rw [transpose_apply [1, 0] z transposes_S32x1605632_S1605632x32_1_0 (ix2 k b) (ix2 b k) fun c => by
    match c with
    | ⟨0, _⟩ => rfl
    | ⟨1, _⟩ => rfl]

/-! ## The three statements -/

/-- The means: the [32, 1] quotient of the row sums by the count. -/
theorem mu_eq : (after ops V (main_v6 : DevRef τ sig) : Spec.SC.Idx → EReal) = Spec.muCol (xin V) := by
  funext i
  obtain ⟨g, u, rfl⟩ : ∃ (g : Fin 32) (u : Fin 1), i = ix2 g u := ⟨i 0, i 1, eq_ix2 i⟩
  exact (congrFun (means_buffer V) (ix2 g u)).trans (rowMeans_apply (xin V) g u)

/-- The centred samples: group g's row at the position of sample (n, j, h, w). -/
theorem xm_apply (g : Fin 32) (n : Fin 64) (j : Fin 8) (h w : Fin 56) :
    (after ops V (main_v8 : DevRef τ sig) : S32x1605632.Idx → EReal) (ix2 g (Spec.flat n j h w))
      = Spec.xg (xin V) g n j h w - Spec.muCol (xin V) (ix2 g (0 : Fin 1)) := by
  refine (congrFun (centred_buffer V) (ix2 g (Spec.flat n j h w))).trans ?_
  rw [centred_apply, groupView_apply]
  rfl

/-- The covariance. -/
theorem sigma_eq :
    (after ops V (main_v21 : DevRef τ sig) : Spec.SM.Idx → EReal) = Spec.sigmaR (Spec.epsEye bcast_S_S32x32) (xin V) := by
  funext i
  obtain ⟨a, b, rfl⟩ : ∃ (a b : Fin 32), i = ix2 a b := ⟨i 0, i 1, eq_ix2 i⟩
  refine (congrFun (sigma_buffer V) (ix2 a b)).trans ?_
  -- the long sum regrouped over the sample positions (n, j, h, w); then position by position
  rw [addf_apply, meanProducts_apply, Spec.sum_flat]
  refine congrArg
    (fun f : Fin 64 → Fin 8 → Fin 56 → Fin 56 → EReal =>
      Ideal.div (Spec.tot f) Spec.cnt + Spec.epsEye bcast_S_S32x32 (ix2 a b))
    (funext fun n => funext fun j => funext fun h => funext fun w => ?_)
  show centred (groupView (xin V)) (ix2 a (Spec.flat n j h w)) * centred (groupView (xin V)) (ix2 b (Spec.flat n j h w)) = _
  rw [centred_apply, centred_apply, groupView_apply, groupView_apply]
  rfl

end Cert.ReferenceIdeal.RefStats

end
-- ==== Proof.RefApply.lean ====
/-
  The reference's whitening read as values: the whitening matrix is the shared chain applied to the covariance, and the
  result array is, at (n, c, h, w), row (c mod 32) of it against the centred samples of channel block (c / 32) at
  (n, h, w), times the channel's scale plus its shift.
-/
import proofs.«173520_j44676249813412_1_alg».proof.Proof.RefOps
import proofs.«173520_j44676249813412_1_alg».proof.Proof.RefStats
import proofs.«173520_j44676249813412_1_alg».proof.Proof.Spec
import proofs.«173520_j44676249813412_1_alg».proof.Proof.SpecAlg
import proofs.«173520_j44676249813412_1_alg».proof.Proof.LibHostRead
import Idealize.ShloMosaic.Lib.Pipeline.Value
import Idealize.ShloMosaic.Lib.StableHlo.Run

noncomputable section

namespace Cert.ReferenceIdeal.RefApply

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.RefRun
open Cert.ReferenceIdeal.RefStats

variable (V : Valuation τ sig (Elt Ideal))

/-! ### Running a list of operations in two parts -/

/-- Running two lists one after the other is running their concatenation. -/
private theorem after_append {T : Topo} {S : RefSig} {Val : EltTy → Type} (l₁ l₂ : List (HloOp T S Val)) (W : Valuation T S Val) :
    after (l₁ ++ l₂) W = after l₂ (after l₁ W) := by
  induction l₁ generalizing W with
  | nil => rfl
  | cons op l ih => exact ih _

/-- A list run from W is its tail past the first n operations run from what those n leave. -/
private theorem after_split {T : Topo} {S : RefSig} {Val : EltTy → Type} (n : ℕ) (l : List (HloOp T S Val)) (W : Valuation T S Val) :
    after l W = after (l.drop n) (after (l.take n) W) := by
  rw [← after_append, List.take_append_drop]

/-! ### The whitening matrix

The first 27 operations end with the covariance. From any contents W, the operations after them compute the trace
normalisation and the five Newton-Schulz steps of whatever W holds in the covariance's place, and leave that place alone. -/

set_option maxHeartbeats 4000000 in
private theorem wm_core (W : Valuation τ sig (Elt Ideal)) :
    (after (List.drop 27 ops) W (main_v74 : DevRef τ sig) : Spec.SM.Idx → EReal)
      = Spec.ns dot_S32x32_S32x32_S32x32_1_0_0_1_n_n bcast_S_S32x32 reducesTo_S32x32_S_d0_1 h_S_
          (W (main_v21 : DevRef τ sig)) := by
  simp only [List.drop_succ_cons, List.drop_zero]
  after_results_simp
  rfl

set_option maxHeartbeats 4000000 in
private theorem keep_sigma (W : Valuation τ sig (Elt Ideal)) :
    after (List.drop 27 ops) W (main_v21 : DevRef τ sig) = W (main_v21 : DevRef τ sig) := by
  simp only [List.drop_succ_cons, List.drop_zero]
  after_results_simp

/-- The whitening matrix: the shared chain applied to the covariance. -/
theorem wm_eq :
    (after ops V (main_v74 : DevRef τ sig) : Spec.SM.Idx → EReal)
      = Spec.ns dot_S32x32_S32x32_S32x32_1_0_0_1_n_n bcast_S_S32x32 reducesTo_S32x32_S_d0_1 h_S_
          (after ops V (main_v21 : DevRef τ sig)) := by
  rw [after_split 27 ops V, wm_core, keep_sigma]

/-! ### The last product's dimension numbers, axis by axis

The product contracts the matrix's second axis with the array's first: the left operand is read at (row of the result,
contraction index), the right at (contraction index, column of the result). -/

private theorem dl0 (j : S32x1605632.Idx) (k : dot_S32x32_S32x1605632_S32x1605632_1_0_0_1_n_n.contr.Idx) :
    (dot_S32x32_S32x1605632_S32x1605632_1_0_0_1_n_n.lhsIdx j k 0 : ℕ) = j 0 := by
  simp [DotDims.lhsIdx, dot_S32x32_S32x1605632_S32x1605632_1_0_0_1_n_n]; rfl
private theorem dl1 (j : S32x1605632.Idx) (k : dot_S32x32_S32x1605632_S32x1605632_1_0_0_1_n_n.contr.Idx) :
    (dot_S32x32_S32x1605632_S32x1605632_1_0_0_1_n_n.lhsIdx j k 1 : ℕ) = k ⟨0, by decide⟩ := by
  simp [DotDims.lhsIdx, dot_S32x32_S32x1605632_S32x1605632_1_0_0_1_n_n]; rfl
private theorem dr0 (j : S32x1605632.Idx) (k : dot_S32x32_S32x1605632_S32x1605632_1_0_0_1_n_n.contr.Idx) :
    (dot_S32x32_S32x1605632_S32x1605632_1_0_0_1_n_n.rhsIdx j k 0 : ℕ) = k ⟨0, by decide⟩ := by
  simp [DotDims.rhsIdx, dot_S32x32_S32x1605632_S32x1605632_1_0_0_1_n_n]; rfl
private theorem dr1 (j : S32x1605632.Idx) (k : dot_S32x32_S32x1605632_S32x1605632_1_0_0_1_n_n.contr.Idx) :
    (dot_S32x32_S32x1605632_S32x1605632_1_0_0_1_n_n.rhsIdx j k 1 : ℕ) = j 1 := by
  simp [DotDims.rhsIdx, dot_S32x32_S32x1605632_S32x1605632_1_0_0_1_n_n]; rfl

/-- The product of a [32, 32] matrix with a [32, 1605632] array, at (p, q): the sum over the 32 rows. -/
private theorem dot_read (A : FVec Ideal S32x32 .f32) (B : FVec Ideal S32x1605632 .f32) (p : Fin 32) (q : Fin 1605632) :
    Host.dotGeneral (F := Ideal) dot_S32x32_S32x1605632_S32x1605632_1_0_0_1_n_n none A B (ix2 p q) = ∑ k : Fin 32, A (ix2 p k) * B (ix2 k q) :=
  Cert.LibHostRead.hostDotGeneral_plain_apply dot_S32x32_S32x1605632_S32x1605632_1_0_0_1_n_n rfl rfl dl0 dl1 dr0 dr1 none A B p q

/-! ### The layout operations at an index -/

/-- The scale and the shift, [1, 256, 1, 1], spread over the result's shape: at (n, c, h, w) the entry of channel c. -/
private theorem bc_read (v : S1x256x1x1.Idx → EReal) (n : Fin 64) (c : Fin 256) (h w : Fin 56) :
    broadcastInDim S64x256x56x56 ![0, 1, 2, 3] bcast_S1x256x1x1_S64x256x56x56_0_1_2_3 v (ix4 n c h w)
      = v (ix4 (0 : Fin 1) c (0 : Fin 1) (0 : Fin 1)) := by
  refine broadcastInDim_apply ![0, 1, 2, 3] _ v (ix4 n c h w) (ix4 (0 : Fin 1) c (0 : Fin 1) (0 : Fin 1)) fun a => ?_
  match a with
  | ⟨0, _⟩ => rfl
  | ⟨1, _⟩ => rfl
  | ⟨2, _⟩ => rfl
  | ⟨3, _⟩ => rfl

/-- The group view [32, 1605632] folded back to [64, 256, 56, 56] (split the long axis into [512, 56, 56], swap the first
    two axes, merge [512, 32] into [64, 256]): entry (n, c, h, w) is row c mod 32 at the position of sample
    (n, c / 32, h, w), since 256 n + c = 32 (8 n + c / 32) + c mod 32. -/
private theorem lay_read (y : S32x1605632.Idx → EReal) (n : Fin 64) (c : Fin 256) (h w : Fin 56) :
    shapeCast S64x256x56x56
        (transpose S512x32x56x56 [1, 0, 2, 3] (shapeCast S32x512x56x56 y shapeCasts_S32x1605632_S32x512x56x56)
          transposes_S32x512x56x56_S512x32x56x56_1_0_2_3)
        shapeCasts_S512x32x56x56_S64x256x56x56 (ix4 n c h w)
      = y (ix2 (Spec.grp c) (Spec.flat n (Spec.blk c) h w)) := by
  have hm : n.val * 8 + c.val / 32 < 512 := by have := n.isLt; have := c.isLt; omega
  have hn := n.isLt
  have hc := c.isLt
  have hh := h.isLt
  have hw := w.isLt
  refine (shapeCast_apply _ shapeCasts_S512x32x56x56_S64x256x56x56 (ix4 n c h w)
    (ix4 (⟨n.val * 8 + c.val / 32, hm⟩ : Fin 512) (Spec.grp c) h w) ?_).trans ?_
  · rw [Shape.rowMajor_val_four, Shape.rowMajor_val_four]
    show (((n.val * 8 + c.val / 32) * 32 + c.val % 32) * 56 + h.val) * 56 + w.val
      = ((n.val * 256 + c.val) * 56 + h.val) * 56 + w.val
    omega
  refine (transpose_apply [1, 0, 2, 3] _ transposes_S32x512x56x56_S512x32x56x56_1_0_2_3
    (ix4 (⟨n.val * 8 + c.val / 32, hm⟩ : Fin 512) (Spec.grp c) h w)
    (ix4 (Spec.grp c) (⟨n.val * 8 + c.val / 32, hm⟩ : Fin 512) h w) fun b => ?_).trans ?_
  · match b with
    | ⟨0, _⟩ => rfl
    | ⟨1, _⟩ => rfl
    | ⟨2, _⟩ => rfl
    | ⟨3, _⟩ => rfl
  refine shapeCast_apply y shapeCasts_S32x1605632_S32x512x56x56
    (ix4 (Spec.grp c) (⟨n.val * 8 + c.val / 32, hm⟩ : Fin 512) h w) (ix2 (Spec.grp c) (Spec.flat n (Spec.blk c) h w)) ?_
  rw [Shape.rowMajor_val_two, Shape.rowMajor_val_four]
  show c.val % 32 * 1605632 + (((n.val * 8 + c.val / 32) * 56 + h.val) * 56 + w.val)
    = ((c.val % 32 * 512 + (n.val * 8 + c.val / 32)) * 56 + h.val) * 56 + w.val
  omega

/-! ### The result array

The first 102 operations end with the whitening matrix. From any contents W, the eight after them multiply what W
holds as the whitening matrix with what it holds as the centred samples, fold the product back to the input's shape,
scale and shift; they write none of the four arrays they read. -/

private theorem tail_read (W : Valuation τ sig (Elt Ideal)) :
    (after (List.drop 102 ops) W (main_v82 : DevRef τ sig) : S64x256x56x56.Idx → EReal)
      = addf (F := Ideal) (φ := .f32)
          (mulf (F := Ideal) (φ := .f32)
            (shapeCast S64x256x56x56
              (transpose S512x32x56x56 [1, 0, 2, 3]
                (shapeCast S32x512x56x56
                  (Host.dotGeneral (F := Ideal) (φ₁ := .f32) (φ₂ := .f32) dot_S32x32_S32x1605632_S32x1605632_1_0_0_1_n_n none
                    (W (main_v74 : DevRef τ sig) : FVec Ideal S32x32 .f32)
                    (W (main_v8 : DevRef τ sig) : FVec Ideal S32x1605632 .f32))
                  shapeCasts_S32x1605632_S32x512x56x56)
                transposes_S32x512x56x56_S512x32x56x56_1_0_2_3)
              shapeCasts_S512x32x56x56_S64x256x56x56)
            (broadcastInDim S64x256x56x56 ![0, 1, 2, 3] bcast_S1x256x1x1_S64x256x56x56_0_1_2_3
              (W (main_arg1 : DevRef τ sig) : S1x256x1x1.Idx → EReal)))
          (broadcastInDim S64x256x56x56 ![0, 1, 2, 3] bcast_S1x256x1x1_S64x256x56x56_0_1_2_3
            (W (main_arg2 : DevRef τ sig) : S1x256x1x1.Idx → EReal)) := by
  simp only [List.drop_succ_cons, List.drop_zero]
  after_results_simp
  rfl

private theorem tail_keep (W : Valuation τ sig (Elt Ideal)) :
    after (List.drop 102 ops) W (main_v74 : DevRef τ sig) = W (main_v74 : DevRef τ sig)
      ∧ after (List.drop 102 ops) W (main_v8 : DevRef τ sig) = W (main_v8 : DevRef τ sig)
      ∧ after (List.drop 102 ops) W (main_arg1 : DevRef τ sig) = W (main_arg1 : DevRef τ sig)
      ∧ after (List.drop 102 ops) W (main_arg2 : DevRef τ sig) = W (main_arg2 : DevRef τ sig) := by
  simp only [List.drop_succ_cons, List.drop_zero]
  refine ⟨?_, ?_, ?_, ?_⟩ <;> after_results_simp

set_option maxHeartbeats 4000000 in
/-- No operation writes the scale or the shift. -/
private theorem args_keep :
    after ops V (main_arg1 : DevRef τ sig) = V (main_arg1 : DevRef τ sig)
      ∧ after ops V (main_arg2 : DevRef τ sig) = V (main_arg2 : DevRef τ sig) := by
  constructor <;> after_results_simp

/-- The result array as the last eight operations of the whitening matrix, the centred samples, the scale and the shift. -/
private theorem v82_read :
    (after ops V (main_v82 : DevRef τ sig) : S64x256x56x56.Idx → EReal)
      = addf (F := Ideal) (φ := .f32)
          (mulf (F := Ideal) (φ := .f32)
            (shapeCast S64x256x56x56
              (transpose S512x32x56x56 [1, 0, 2, 3]
                (shapeCast S32x512x56x56
                  (Host.dotGeneral (F := Ideal) (φ₁ := .f32) (φ₂ := .f32) dot_S32x32_S32x1605632_S32x1605632_1_0_0_1_n_n none
                    (after ops V (main_v74 : DevRef τ sig) : FVec Ideal S32x32 .f32)
                    (after ops V (main_v8 : DevRef τ sig) : FVec Ideal S32x1605632 .f32))
                  shapeCasts_S32x1605632_S32x512x56x56)
                transposes_S32x512x56x56_S512x32x56x56_1_0_2_3)
              shapeCasts_S512x32x56x56_S64x256x56x56)
            (broadcastInDim S64x256x56x56 ![0, 1, 2, 3] bcast_S1x256x1x1_S64x256x56x56_0_1_2_3
              (V (main_arg1 : DevRef τ sig) : S1x256x1x1.Idx → EReal)))
          (broadcastInDim S64x256x56x56 ![0, 1, 2, 3] bcast_S1x256x1x1_S64x256x56x56_0_1_2_3
            (V (main_arg2 : DevRef τ sig) : S1x256x1x1.Idx → EReal)) := by
  rw [← (args_keep V).1, ← (args_keep V).2, after_split 102 ops V, tail_read, (tail_keep _).1, (tail_keep _).2.1, (tail_keep _).2.2.1,
    (tail_keep _).2.2.2]

/-- The result array. -/
theorem out_eq :
    (after ops V (main_v82 : DevRef τ sig) : Spec.SX.Idx → EReal)
      = Spec.apply (after ops V (main_v74 : DevRef τ sig)) (Spec.muCol (xin V)) (xin V)
          (fun ch => (V (main_arg1 : DevRef τ sig) : S1x256x1x1.Idx → EReal) (ix4 (0 : Fin 1) ch (0 : Fin 1) (0 : Fin 1)))
          (fun ch => (V (main_arg2 : DevRef τ sig) : S1x256x1x1.Idx → EReal) (ix4 (0 : Fin 1) ch (0 : Fin 1) (0 : Fin 1))) := by
  funext i
  obtain ⟨n, c, h, w, rfl⟩ : ∃ (n : Fin 64) (c : Fin 256) (h w : Fin 56), i = ix4 n c h w :=
    ⟨i 0, i 1, i 2, i 3, eq_ix4 i⟩
  rw [v82_read, addf_apply, mulf_apply, bc_read, bc_read, lay_read, dot_read]
  show _ = Spec.applyAt _ _ _ _ _ n c h w
  unfold Spec.applyAt
  refine congrArg₂ (· + ·) (congrArg₂ (· * ·) (Finset.sum_congr rfl fun k _ => ?_) rfl) rfl
  rw [xm_apply]
  rfl

end Cert.ReferenceIdeal.RefApply

end
-- ==== Proof.lean ====
/-
  The group whitening kernel against its reference, over the extended reals.

  Both programs whiten x : [64, 256, 56, 56] by groups of channels (channel 32 j + g is in group g): per-group means, the
  32 x 32 covariance of the groups' samples plus a ridge, its normalisation by the trace and five Newton-Schulz steps
  giving the whitening matrix, then each output entry is a row of that matrix against the centred samples of its
  channel block, scaled and shifted per channel.

  The kernel computes the statistics in one pass over a 4 x 8 grid of blocks (sums and sums of products accumulated in
  two outputs), forms the covariance on the host as second moments minus products of means, runs the shared host chain,
  and applies the result in a second pass over an 8 x 8 grid.  The reference forms the covariance as the mean of products
  of centred samples over the whole [32, 1605632] group view.  For finite samples the two covariances are the same real
  matrix (the count the programs divide by is the number of samples), the chain after it is one function of that matrix
  in both programs, and the final products, sums, scale and shift are the same expressions; no other law is needed.
-/
import proofs.«173520_j44676249813412_1_alg».proof.Defs
import proofs.«173520_j44676249813412_1_alg».proof.Proof.Gen.Kernel
import proofs.«173520_j44676249813412_1_alg».proof.Proof.Gen.Kernel.Frame
import proofs.«173520_j44676249813412_1_alg».proof.Proof.Gen.KernelIdeal
import proofs.«173520_j44676249813412_1_alg».proof.Proof.Gen.KernelIdeal.Frame
import proofs.«173520_j44676249813412_1_alg».proof.Proof.Gen.ReferenceIdeal
import proofs.«173520_j44676249813412_1_alg».proof.Proof.Gen.Pre_finite_inputs
import proofs.«173520_j44676249813412_1_alg».proof.Proof.Spec
import proofs.«173520_j44676249813412_1_alg».proof.Proof.SpecAlg
import proofs.«173520_j44676249813412_1_alg».proof.Proof.Finite
import proofs.«173520_j44676249813412_1_alg».proof.Proof.KRun
import proofs.«173520_j44676249813412_1_alg».proof.Proof.KStats
import proofs.«173520_j44676249813412_1_alg».proof.Proof.KHost
import proofs.«173520_j44676249813412_1_alg».proof.Proof.KApply
import proofs.«173520_j44676249813412_1_alg».proof.Proof.RefRun
import proofs.«173520_j44676249813412_1_alg».proof.Proof.RefStats
import proofs.«173520_j44676249813412_1_alg».proof.Proof.RefApply
import Idealize.ShloMosaic.Adequacy
import Idealize.ShloMosaic.Init

noncomputable section

namespace Cert.Proof

open Idealize.ShloMosaic Idealize.ShloMosaic.TcCoe Idealize.ShloMosaic.ValueIdx Idealize.SL.Sem

/-! ## The result both programs end at, as one function of the launch arrays -/

/-- The whitening matrix from the covariance, with the kernel program's shape facts. -/
abbrev wmOf (σ : Spec.SM.Idx → EReal) : Spec.SM.Idx → EReal :=
  Spec.ns Cert.KernelIdeal.dot_S32x32_S32x32_S32x32_1_0_0_1_n_n Cert.KernelIdeal.Gen.bcast_S_S32x32
    Cert.KernelIdeal.Gen.reducesTo_S32x32_S_d0_1 Cert.KernelIdeal.Gen.h_S_ σ

/-- The ridge. -/
abbrev ridge : Spec.SM.Idx → EReal := Spec.epsEye Cert.KernelIdeal.Gen.bcast_S_S32x32

/-- The result array from the input, the scale and the shift. -/
def result (x : Spec.SX.Idx → EReal) (w b : Cert.KernelIdeal.S1x256x1x1.Idx → EReal) : Spec.SX.Idx → EReal :=
  Spec.apply (wmOf (Spec.sigmaR ridge x)) (Spec.muCol x) x
    (fun ch => w (ix4 (0 : Fin 1) ch (0 : Fin 1) (0 : Fin 1))) (fun ch => b (ix4 (0 : Fin 1) ch (0 : Fin 1) (0 : Fin 1)))

/-! ## The kernel's value -/

section Kernel
open Cert.KernelIdeal Cert.KernelIdeal.Gen

/-- The kernel's result array after the run, for finite samples: the statistics pass's sums and products, the host
    chain over the covariance they give, and the whitening pass's blocks, composed. -/
theorem kernel_value (m : (ℓ : Loc nD τ sig) → Buf (Elt Ideal) ℓ) (ρ : Dev nD → PrngReg) (c : Dev nD)
    (hx : ∀ i, ∃ r : ℝ, (m ((c : Thread nD τ).loc main_arg0) : Spec.SX.Idx → EReal) i = (r : EReal)) :
    W5 m ρ c (Proc.devRef .tc main_v74)
      = result (m ((c : Thread nD τ).loc main_arg0)) (m ((c : Thread nD τ).loc main_arg1)) (m ((c : Thread nD τ).loc main_arg2)) := by
  have hs : Cert.KernelIdeal.KHost.sums m ρ c = Spec.sumCol (m ((c : Thread nD τ).loc main_arg0)) :=
    (Cert.KernelIdeal.KStats.stats_sum (V0 m ρ) c).trans (congrArg Spec.sumCol (Cert.KernelIdeal.KHost.entry_arg0 m ρ c))
  have hg : Cert.KernelIdeal.KHost.grams m ρ c = Spec.gramM (m ((c : Thread nD τ).loc main_arg0)) :=
    (Cert.KernelIdeal.KStats.stats_gram (V0 m ρ) c).trans (congrArg Spec.gramM (Cert.KernelIdeal.KHost.entry_arg0 m ρ c))
  have hwm : (V4 m ρ c main_v69 : Spec.SM.Idx → EReal) = wmOf (Spec.sigmaR ridge (m ((c : Thread nD τ).loc main_arg0))) :=
    (Cert.KernelIdeal.KHost.host_wm m ρ c).trans (congrArg wmOf (by rw [hs, hg]; exact Spec.sigma_eq _ _ hx))
  have hmu : (V4 m ρ c main_v2 : Spec.SC.Idx → EReal) = Spec.muCol (m ((c : Thread nD τ).loc main_arg0)) :=
    (Cert.KernelIdeal.KHost.host_mu m ρ c).trans (congrArg Spec.muFrom hs)
  have hw : (fun ch => (V4 m ρ c main_v72 : S8x1x32.Idx → EReal) (ix3 (Spec.blk ch) (0 : Fin 1) (Spec.grp ch)))
      = fun ch => (m ((c : Thread nD τ).loc main_arg1) : S1x256x1x1.Idx → EReal) (ix4 (0 : Fin 1) ch (0 : Fin 1) (0 : Fin 1)) :=
    funext fun ch => (Cert.KernelIdeal.KHost.host_w m ρ c (Spec.blk ch) (Spec.grp ch)).trans (by rw [Spec.chan_blk_grp])
  have hb : (fun ch => (V4 m ρ c main_v73 : S8x1x32.Idx → EReal) (ix3 (Spec.blk ch) (0 : Fin 1) (Spec.grp ch)))
      = fun ch => (m ((c : Thread nD τ).loc main_arg2) : S1x256x1x1.Idx → EReal) (ix4 (0 : Fin 1) ch (0 : Fin 1) (0 : Fin 1)) :=
    funext fun ch => (Cert.KernelIdeal.KHost.host_b m ρ c (Spec.blk ch) (Spec.grp ch)).trans (by rw [Spec.chan_blk_grp])
  exact (W5_arr m ρ c 5).trans ((Cert.KernelIdeal.KApply.apply_final (V4 m ρ) c).trans
    (congr (congr (congr (congr (congrArg Spec.apply hwm) hmu) (Cert.KernelIdeal.KHost.host_arg0 m ρ c)) hw) hb))

end Kernel

/-! ## The reference's value -/

section Reference
open Cert.ReferenceIdeal Cert.ReferenceIdeal.Gen Cert.ReferenceIdeal.RefRun Idealize.ShloMosaic.StableHlo

/-- The two programs' records of dimension numbers for the 32 x 32 products are one record. -/
theorem dot_eq : Cert.ReferenceIdeal.dot_S32x32_S32x32_S32x32_1_0_0_1_n_n = Cert.KernelIdeal.dot_S32x32_S32x32_S32x32_1_0_0_1_n_n := rfl

/-- The reference's result array after its operations, from any valuation. -/
theorem reference_value (V : Valuation τ sig (Elt Ideal)) :
    after ops V (main_v82 : DevRef τ sig)
      = result (V (main_arg0 : DevRef τ sig)) (V (main_arg1 : DevRef τ sig)) (V (main_arg2 : DevRef τ sig)) := by
  refine (Cert.ReferenceIdeal.RefApply.out_eq V).trans ?_
  rw [Cert.ReferenceIdeal.RefApply.wm_eq, Cert.ReferenceIdeal.RefStats.sigma_eq]
  rfl

end Reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun _ h c => ⟨(h c _).trans (Cert.ReferenceIdeal.RefRun.arg0_eq _), (h c _).trans (Cert.ReferenceIdeal.RefRun.arg1_eq _),
      (h c _).trans (Cert.ReferenceIdeal.RefRun.arg2_eq _)⟩)
    (Cert.ReferenceIdeal.RefRun.run_main (F := Ideal) m ρ)

theorem preserves : Cert.preserves_Kernel_KernelIdeal := trivial

theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KRun.run_main (F := Ideal) m ρ)
    exact kernel_value m ρ c (Cert.Finite.real_of_pre _ _ _ (hpre c))
  · refine (θ_run Cert.ReferenceIdeal.defs _ _).mono
      (fun _ h c => ⟨(h c _).trans ?_, (h c _).trans (Cert.ReferenceIdeal.RefRun.arg0_eq _),
        (h c _).trans (Cert.ReferenceIdeal.RefRun.arg1_eq _), (h c _).trans (Cert.ReferenceIdeal.RefRun.arg2_eq _)⟩)
      (Cert.ReferenceIdeal.RefRun.run_main (F := Ideal) m' ρ')
    exact (reference_value _).trans (congr (congr (congrArg result (hagree c).1) (hagree c).2.1) (hagree c).2.2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
